-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x2 : Shape := ⟨2, ![2000000, 2]⟩
abbrev S2x50 : Shape := ⟨2, ![2, 50]⟩
abbrev S50 : Shape := ⟨1, ![50]⟩
abbrev S50x50 : Shape := ⟨2, ![50, 50]⟩
abbrev S50x40 : Shape := ⟨2, ![50, 40]⟩
abbrev S40 : Shape := ⟨1, ![40]⟩
abbrev S40x1 : Shape := ⟨2, ![40, 1]⟩
abbrev S1 : Shape := ⟨1, ![1]⟩
abbrev S_ : Shape := ⟨0, ![]⟩

class Facts : Prop where
  bcast_S_S2000000x2 : S_.BroadcastsInDim S2000000x2 (![] : Fin 0 → Fin S2000000x2.rank)
  reducesTo_S2000000x2_S_d0_1 : S2000000x2.ReducesTo [0, 1] S_
  h_S_ : 0 < S_.numel
  bcast_S_S2x50 : S_.BroadcastsInDim S2x50 (![] : Fin 0 → Fin S2x50.rank)
  reducesTo_S2x50_S_d0_1 : S2x50.ReducesTo [0, 1] S_
  bcast_S_S50 : S_.BroadcastsInDim S50 (![] : Fin 0 → Fin S50.rank)
  reducesTo_S50_S_d0 : S50.ReducesTo [0] S_
  bcast_S_S50x50 : S_.BroadcastsInDim S50x50 (![] : Fin 0 → Fin S50x50.rank)
  reducesTo_S50x50_S_d0_1 : S50x50.ReducesTo [0, 1] S_
  bcast_S_S50x40 : S_.BroadcastsInDim S50x40 (![] : Fin 0 → Fin S50x40.rank)
  reducesTo_S50x40_S_d0_1 : S50x40.ReducesTo [0, 1] S_
  bcast_S_S40 : S_.BroadcastsInDim S40 (![] : Fin 0 → Fin S40.rank)
  reducesTo_S40_S_d0 : S40.ReducesTo [0] S_
  bcast_S_S40x1 : S_.BroadcastsInDim S40x1 (![] : Fin 0 → Fin S40x1.rank)
  reducesTo_S40x1_S_d0_1 : S40x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S40 .f32) (main_arg15 : FVec F S40x1 .f32) (main_arg16 : FVec F S1 .f32) (main_arg17 : FVec F S1 .f32) (main_v63 : IVec S_ 1) (main_v67 : IVec S_ 1) : IVec S_ 1 :=
  let main_v68 : IVec S_ 1 := andi main_v63 main_v67
  let main_v69 : FVec F S40 .f32 := Host.absf main_arg14
  let main_cst_26 : FVec F S_ .f32 := constant S_ .f32 0x7F800000#32
  let main_v70 : FVec F S40 .f32 := broadcastInDim S40 ![] bcast_S_S40 main_cst_26
  let main_v71 : IVec S40 1 := cmpf .olt main_v69 main_v70
  let main_c_27 : IVec S_ 1 := constantI S_ 1 1#1
  let main_v72 : IVec S_ 1 := (fun x v => Host.reduce IntOp.andi x v reducesTo_S40_S_d0 h_S_) main_v71 main_c_27
  let main_v73 : IVec S_ 1 := andi main_v68 main_v72
  let main_v74 : FVec F S40x1 .f32 := Host.absf main_arg15
  let main_cst_28 : FVec F S_ .f32 := constant S_ .f32 0x7F800000#32
  let main_v75 : FVec F S40x1 .f32 := broadcastInDim S40x1 ![] bcast_S_S40x1 main_cst_28
  let main_v76 : IVec S40x1 1 := cmpf .olt main_v74 main_v75
  let main_c_29 : IVec S_ 1 := constantI S_ 1 1#1
  let main_v77 : IVec S_ 1 := (fun x v => Host.reduce IntOp.andi x v reducesTo_S40x1_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S50x50 .f32) (main_arg12 : FVec F S50 .f32) (main_arg13 : FVec F S50x40 .f32) (main_arg14 : FVec F S40 .f32) (main_arg15 : FVec F S40x1 .f32) (main_arg16 : FVec F S1 .f32) (main_arg17 : FVec F S1 .f32) (main_v48 : IVec S_ 1) (main_v49 : FVec F S50 .f32) (main_v50 : FVec F S50 .f32) : IVec S_ 1 :=
  let main_v51 : IVec S50 1 := cmpf .olt main_v49 main_v50
  let main_c_19 : IVec S_ 1 := constantI S_ 1 1#1
  let main_v52 : IVec S_ 1 := (fun x v => Host.reduce IntOp.andi x v reducesTo_S50_S_d0 h_S_) main_v51 main_c_19
  let main_v53 : IVec S_ 1 := andi main_v48 main_v52
  let main_v54 : FVec F S50x50 .f32 := Host.absf main_arg11
  let main_cst_20 : FVec F S_ .f32 := constant S_ .f32 0x7F800000#32
  let main_v55 : FVec F S50x50 .f32 := broadcastInDim S50x50 ![] bcast_S_S50x50 main_cst_20
  let main_v56 : IVec S50x50 1 := cmpf .olt main_v54 main_v55
  let main_c_21 : IVec S_ 1 := constantI S_ 1 1#1
  let main_v57 : IVec S_ 1 := (fun x v => Host.reduce IntOp.andi x v reducesTo_S50x50_S_d0_1 h_S_) main_v56 main_c_21
  let main_v58 : IVec S_ 1 := andi main_v53 main_v57
  let main_v59 : FVec F S50 .f32 := Host.absf main_arg12
  let main_cst_22 : FVec F S_ .f32 := constant S_ .f32 0x7F800000#32
  let main_v60 : FVec F S50 .f32 := broadcastInDim S50 ![] bcast_S_S50 main_cst_22
  let main_v61 : IVec S50 1 := cmpf .olt main_v59 main_v60
  let main_c_23 : IVec S_ 1 := constantI S_ 1 1#1
  let main_v62 : IVec S_ 1 := (fun x v => Host.reduce IntOp.andi x v reducesTo_S50_S_d0 h_S_) main_v61 main_c_23
  let main_v63 : IVec S_ 1 := andi main_v58 main_v62
  let main_v64 : FVec F S50x40 .f32 := Host.absf main_arg13
  let main_cst_24 : FVec F S_ .f32 := constant S_ .f32 0x7F800000#32
  let main_v65 : FVec F S50x40 .f32 := broadcastInDim S50x40 ![] bcast_S_S50x40 main_cst_24
  let main_v66 : IVec S50x40 1 := cmpf .olt main_v64 main_v65
  let main_c_25 : IVec S_ 1 := constantI S_ 1 1#1
  let main_v67 : IVec S_ 1 := (fun x v => Host.reduce IntOp.andi x v reducesTo_S50x40_S_d0_1 h_S_) main_v66 main_c_25
  fn_part4 (F := F) main_arg14 main_arg15 main_arg16 main_arg17 main_v63 main_v67

def fn_part2 {F : FTy → Type} [FloatOps F] (main_arg7 : FVec F S50x50 .f32) (main_arg8 : FVec F S50 .f32) (main_arg9 : FVec F S50x50 .f32) (main_arg10 : FVec F S50 .f32) (main_arg11 : FVec F S50x50 .f32) (main_arg12 : FVec F S50 .f32) (main_arg13 : FVec F S50x40 .f32) (main_arg14 : FVec F S40 .f32) (main_arg15 : FVec F S40x1 .f32) (main_arg16 : FVec F S1 .f32) (main_arg17 : FVec F S1 .f32) (main_v33 : IVec S_ 1) : IVec S_ 1 :=
  let main_v34 : FVec F S50x50 .f32 := Host.absf main_arg7
  let main_cst_12 : FVec F S_ .f32 := constant S_ .f32 0x7F800000#32
  let main_v35 : FVec F S50x50 .f32 := broadcastInDim S50x50 ![] bcast_S_S50x50 main_cst_12
  let main_v36 : IVec S50x50 1 := cmpf .olt main_v34 main_v35
  let main_c_13 : IVec S_ 1 := constantI S_ 1 1#1
  let main_v37 : IVec S_ 1 := (fun x v => Host.reduce IntOp.andi x v reducesTo_S50x50_S_d0_1 h_S_) main_v36 main_c_13
  let main_v38 : IVec S_ 1 := andi main_v33 main_v37
  let main_v39 : FVec F S50 .f32 := Host.absf main_arg8
  let main_cst_14 : FVec F S_ .f32 := constant S_ .f32 0x7F800000#32
  let main_v40 : FVec F S50 .f32 := broadcastInDim S50 ![] bcast_S_S50 main_cst_14
  let main_v41 : IVec S50 1 := cmpf .olt main_v39 main_v40
  let main_c_15 : IVec S_ 1 := constantI S_ 1 1#1
  let main_v42 : IVec S_ 1 := (fun x v => Host.reduce IntOp.andi x v reducesTo_S50_S_d0 h_S_) main_v41 main_c_15
  let main_v43 : IVec S_ 1 := andi main_v38 main_v42
  let main_v44 : FVec F S50x50 .f32 := Host.absf main_arg9
  let main_cst_16 : FVec F S_ .f32 := constant S_ .f32 0x7F800000#32
  let main_v45 : FVec F S50x50 .f32 := broadcastInDim S50x50 ![] bcast_S_S50x50 main_cst_16
  let main_v46 : IVec S50x50 1 := cmpf .olt main_v44 main_v45
  let main_c_17 : IVec S_ 1 := constantI S_ 1 1#1
  let main_v47 : IVec S_ 1 := (fun x v => Host.reduce IntOp.andi x v reducesTo_S50x50_S_d0_1 h_S_) main_v46 main_c_17
  let main_v48 : IVec S_ 1 := andi main_v43 main_v47
  let main_v49 : FVec F S50 .f32 := Host.absf main_arg10
  let main_cst_18 : FVec F S_ .f32 := constant S_ .f32 0x7F800000#32
  let main_v50 : FVec F S50 .f32 := broadcastInDim S50 ![] bcast_S_S50 main_cst_18
  fn_part3 (F := F) main_arg11 main_arg12 main_arg13 main_arg14 main_arg15 main_arg16 main_arg17 main_v48 main_v49 main_v50

def fn_part1 {F : FTy → Type} [FloatOps F] (main_arg4 : FVec F S50 .f32) (main_arg5 : FVec F S50x50 .f32) (main_arg6 : FVec F S50 .f32) (main_arg7 : FVec F S50x50 .f32) (main_arg8 : FVec F S50 .f32) (main_arg9 : FVec F S50x50 .f32) (main_arg10 : FVec F S50 .f32) (main_arg11 : FVec F S50x50 .f32) (main_arg12 : FVec F S50 .f32) (main_arg13 : FVec F S50x40 .f32) (main_arg14 : FVec F S40 .f32) (main_arg15 : FVec F S40x1 .f32) (main_arg16 : FVec F S1 .f32) (main_arg17 : FVec F S1 .f32) (main_v13 : IVec S_ 1) (main_v16 : IVec S50x50 1) : IVec S_ 1 :=
  let main_c_5 : IVec S_ 1 := constantI S_ 1 1#1
  let main_v17 : IVec S_ 1 := (fun x v => Host.reduce IntOp.andi x v reducesTo_S50x50_S_d0_1 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S50x50 .f32 := Host.absf main_arg5
  let main_cst_8 : FVec F S_ .f32 := constant S_ .f32 0x7F800000#32
  let main_v25 : FVec F S50x50 .f32 := broadcastInDim S50x50 ![] bcast_S_S50x50 main_cst_8
  let main_v26 : IVec S50x50 1 := cmpf .olt main_v24 main_v25
  let main_c_9 : IVec S_ 1 := constantI S_ 1 1#1
  let main_v27 : IVec S_ 1 := (fun x v => Host.reduce IntOp.andi x v reducesTo_S50x50_S_d0_1 h_S_) main_v26 main_c_9
  let main_v28 : IVec S_ 1 := andi main_v23 main_v27
  let main_v29 : FVec F S50 .f32 := Host.absf main_arg6
  let main_cst_10 : FVec F S_ .f32 := constant S_ .f32 0x7F800000#32
  let main_v30 : FVec F S50 .f32 := broadcastInDim S50 ![] bcast_S_S50 main_cst_10
  let main_v31 : IVec S50 1 := cmpf .olt main_v29 main_v30
  let main_c_11 : IVec S_ 1 := constantI S_ 1 1#1
  let main_v32 : IVec S_ 1 := (fun x v => Host.reduce IntOp.andi x v reducesTo_S50_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S2000000x2 .f32) (main_arg1 : FVec F S2x50 .f32) (main_arg2 : FVec F S50 .f32) (main_arg3 : FVec F S50x50 .f32) (main_arg4 : FVec F S50 .f32) (main_arg5 : FVec F S50x50 .f32) (main_arg6 : FVec F S50 .f32) (main_arg7 : FVec F S50x50 .f32) (main_arg8 : FVec F S50 .f32) (main_arg9 : FVec F S50x50 .f32) (main_arg10 : FVec F S50 .f32) (main_arg11 : FVec F S50x50 .f32) (main_arg12 : FVec F S50 .f32) (main_arg13 : FVec F S50x40 .f32) (main_arg14 : FVec F S40 .f32) (main_arg15 : FVec F S40x1 .f32) (main_arg16 : FVec F S1 .f32) (main_arg17 : FVec F S1 .f32) : IVec S_ 1 :=
  let main_v0 : FVec F S2000000x2 .f32 := Host.absf main_arg0
  let main_cst : FVec F S_ .f32 := constant S_ .f32 0x7F800000#32
  let main_v1 : FVec F S2000000x2 .f32 := broadcastInDim S2000000x2 ![] bcast_S_S2000000x2 main_cst
  let main_v2 : IVec S2000000x2 1 := cmpf .olt main_v0 main_v1
  let main_c : IVec S_ 1 := constantI S_ 1 1#1
  let main_v3 : IVec S_ 1 := (fun x v => Host.reduce IntOp.andi x v reducesTo_S2000000x2_S_d0_1 h_S_) main_v2 main_c
  let main_v4 : FVec F S2x50 .f32 := Host.absf main_arg1
  let main_cst_0 : FVec F S_ .f32 := constant S_ .f32 0x7F800000#32
  let main_v5 : FVec F S2x50 .f32 := broadcastInDim S2x50 ![] bcast_S_S2x50 main_cst_0
  let main_v6 : IVec S2x50 1 := cmpf .olt main_v4 main_v5
  let main_c_1 : IVec S_ 1 := constantI S_ 1 1#1
  let main_v7 : IVec S_ 1 := (fun x v => Host.reduce IntOp.andi x v reducesTo_S2x50_S_d0_1 h_S_) main_v6 main_c_1
  let main_v8 : IVec S_ 1 := andi main_v3 main_v7
  let main_v9 : FVec F S50 .f32 := Host.absf main_arg2
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S50x50 .f32 := Host.absf main_arg3
  let main_cst_4 : FVec F S_ .f32 := constant S_ .f32 0x7F800000#32
  let main_v15 : FVec F S50x50 .f32 := broadcastInDim S50x50 ![] bcast_S_S50x50 main_cst_4
  let main_v16 : IVec S50x50 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S2000000x2 : Shape := ⟨2, ![2000000, 2]⟩
abbrev S2x50 : Shape := ⟨2, ![2, 50]⟩
abbrev S50 : Shape := ⟨1, ![50]⟩
abbrev S50x50 : Shape := ⟨2, ![50, 50]⟩
abbrev S50x40 : Shape := ⟨2, ![50, 40]⟩
abbrev S40 : Shape := ⟨1, ![40]⟩
abbrev S40x1 : Shape := ⟨2, ![40, 1]⟩
abbrev S1 : Shape := ⟨1, ![1]⟩
abbrev S1x1 : Shape := ⟨2, ![1, 1]⟩
abbrev S2000000x1 : Shape := ⟨2, ![2000000, 1]⟩
abbrev S10000x2 : Shape := ⟨2, ![10000, 2]⟩
abbrev S10000x1 : Shape := ⟨2, ![10000, 1]⟩
abbrev S10000x50 : Shape := ⟨2, ![10000, 50]⟩
abbrev S1x50 : Shape := ⟨2, ![1, 50]⟩
abbrev S10000x40 : Shape := ⟨2, ![10000, 40]⟩
abbrev S1x40 : Shape := ⟨2, ![1, 40]⟩

abbrev nBuf : Space → Nat
  | .hbm => 20
  | .vmem => 21
  | .smem => 0
  | _ => 0

abbrev bufTy : (tb : Table) → Fin (tcTables nBuf tb) → BufTy
  | .hbm, ⟨0, _⟩ => ⟨S2000000x2, .f32⟩
  | .hbm, ⟨1, _⟩ => ⟨S2x50, .f32⟩
  | .hbm, ⟨2, _⟩ => ⟨S50, .f32⟩
  | .hbm, ⟨3, _⟩ => ⟨S50x50, .f32⟩
  | .hbm, ⟨4, _⟩ => ⟨S50, .f32⟩
  | .hbm, ⟨5, _⟩ => ⟨S50x50, .f32⟩
  | .hbm, ⟨6, _⟩ => ⟨S50, .f32⟩
  | .hbm, ⟨7, _⟩ => ⟨S50x50, .f32⟩
  | .hbm, ⟨8, _⟩ => ⟨S50, .f32⟩
  | .hbm, ⟨9, _⟩ => ⟨S50x50, .f32⟩
  | .hbm, ⟨10, _⟩ => ⟨S50, .f32⟩
  | .hbm, ⟨11, _⟩ => ⟨S50x50, .f32⟩
  | .hbm, ⟨12, _⟩ => ⟨S50, .f32⟩
  | .hbm, ⟨13, _⟩ => ⟨S50x40, .f32⟩
  | .hbm, ⟨14, _⟩ => ⟨S40, .f32⟩
  | .hbm, ⟨15, _⟩ => ⟨S40x1, .f32⟩
  | .hbm, ⟨16, _⟩ => ⟨S1, .f32⟩
  | .hbm, ⟨17, _⟩ => ⟨S1, .f32⟩
  | .hbm, ⟨18, _⟩ => ⟨S1x1, .f32⟩
  | .hbm, ⟨19, _⟩ => ⟨S2000000x1, .f32⟩
  | .local _ .vmem, ⟨0, _⟩ => ⟨S10000x2, .f32⟩
  | .local _ .vmem, ⟨1, _⟩ => ⟨S10000x2, .f32⟩
  | .local _ .vmem, ⟨2, _⟩ => ⟨S2x50, .f32⟩
  | .local _ .vmem, ⟨3, _⟩ => ⟨S50, .f32⟩
  | .local _ .vmem, ⟨4, _⟩ => ⟨S50x50, .f32⟩
  | .local _ .vmem, ⟨5, _⟩ => ⟨S50, .f32⟩
  | .local _ .vmem, ⟨6, _⟩ => ⟨S50x50, .f32⟩
  | .local _ .vmem, ⟨7, _⟩ => ⟨S50, .f32⟩
  | .local _ .vmem, ⟨8, _⟩ => ⟨S50x50, .f32⟩
  | .local _ .vmem, ⟨9, _⟩ => ⟨S50, .f32⟩
  | .local _ .vmem, ⟨10, _⟩ => ⟨S50x50, .f32⟩
  | .local _ .vmem, ⟨11, _⟩ => ⟨S50, .f32⟩
  | .local _ .vmem, ⟨12, _⟩ => ⟨S50x50, .f32⟩
  | .local _ .vmem, ⟨13, _⟩ => ⟨S50, .f32⟩
  | .local _ .vmem, ⟨14, _⟩ => ⟨S50x40, .f32⟩
  | .local _ .vmem, ⟨15, _⟩ => ⟨S40, .f32⟩
  | .local _ .vmem, ⟨16, _⟩ => ⟨S40x1, .f32⟩
  | .local _ .vmem, ⟨17, _⟩ => ⟨S1, .f32⟩
  | .local _ .vmem, ⟨18, _⟩ => ⟨S1x1, .f32⟩
  | .local _ .vmem, ⟨19, _⟩ => ⟨S10000x1, .f32⟩
  | .local _ .vmem, ⟨20, _⟩ => ⟨S10000x1, .f32⟩
  | _, _ => ⟨S2000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S50x50 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S50 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S50x50 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S50 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S50x40 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S40 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S40x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S10000x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  shapeCasts_S1_S1x1 : S1.ShapeCasts S1x1
  inb_S10000x2_S10000x2_0_0 : ∀ a, (![0, 0] : Fin 2 → Nat) a + S10000x2.size a ≤ S10000x2.size a
  h_S10000x2 : 0 < S10000x2.numel
  bitsLt_bf16_f32 : FTy.bits .bf16 < FTy.bits .f32
  inb_S2x50_S2x50_0_0 : ∀ a, (![0, 0] : Fin 2 → Nat) a + S2x50.size a ≤ S2x50.size a
  h_S2x50 : 0 < S2x50.numel
  inb_S50_S50_0 : ∀ a, (![0] : Fin 1 → Nat) a + S50.size a ≤ S50.size a
  h_S50 : 0 < S50.numel
  shapeCasts_S50_S1x50 : S50.ShapeCasts S1x50
  broadcasts_S1x50_S10000x50 : S1x50.Broadcasts S10000x50
  inb_S50x50_S50x50_0_0 : ∀ a, (![0, 0] : Fin 2 → Nat) a + S50x50.size a ≤ S50x50.size a
  h_S50x50 : 0 < S50x50.numel
  inb_S50x40_S50x40_0_0 : ∀ a, (![0, 0] : Fin 2 → Nat) a + S50x40.size a ≤ S50x40.size a
  h_S50x40 : 0 < S50x40.numel
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  inb_S40x1_S40x1_0_0 : ∀ a, (![0, 0] : Fin 2 → Nat) a + S40x1.size a ≤ S40x1.size a
  h_S40x1 : 0 < S40x1.numel
  inb_S1_S1_0 : ∀ a, (![0] : Fin 1 → Nat) a + S1.size a ≤ S1.size a
  h_S1 : 0 < S1.numel
  broadcasts_S1x1_S10000x1 : S1x1.Broadcasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x1_S10000x1_0_0 : ∀ a, (![0, 0] : Fin 2 → Nat) a + S10000x1.size a ≤ S10000x1.size a
  h_S10000x1 : 0 < S10000x1.numel
  dot_S10000x2_S2x50_S10000x50_1_0_0_1_n_n_wf : DotDims.WF S10000x2 S2x50 S10000x50 [1] [0] [0] [1] [] []
  dot_S10000x50_S50x50_S10000x50_1_0_0_1_n_n_wf : DotDims.WF S10000x50 S50x50 S10000x50 [1] [0] [0] [1] [] []
  dot_S10000x50_S50x40_S10000x40_1_0_0_1_n_n_wf : DotDims.WF S10000x50 S50x40 S10000x40 [1] [0] [0] [1] [] []
  dot_S10000x40_S40x1_S10000x1_1_0_0_1_n_n_wf : DotDims.WF S10000x40 S40x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S2000000x2.size a
  hwx0_0 : ∀ i : grid0.Coords, EltTy.bits .f32 = 32 ∨ (Rect.block (s := S2000000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x50.size a ≤ S2x50.size a
  hwx0_1 : ∀ i : grid0.Coords, EltTy.bits .f32 = 32 ∨ (Rect.block (s := S2x50) S2x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50.size a ≤ S50.size a
  hwx0_2 : ∀ i : grid0.Coords, EltTy.bits .f32 = 32 ∨ (Rect.block (s := S50) S50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x50.size a ≤ S50x50.size a
  hwx0_3 : ∀ i : grid0.Coords, EltTy.bits .f32 = 32 ∨ (Rect.block (s := S50x50) S50x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50.size a ≤ S50.size a
  hwx0_4 : ∀ i : grid0.Coords, EltTy.bits .f32 = 32 ∨ (Rect.block (s := S50) S50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50x50.size a ≤ S50x50.size a
  hwx0_5 : ∀ i : grid0.Coords, EltTy.bits .f32 = 32 ∨ (Rect.block (s := S50x50) S50x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S50.size a ≤ S50.size a
  hwx0_6 : ∀ i : grid0.Coords, EltTy.bits .f32 = 32 ∨ (Rect.block (s := S50) S50.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50x50.size a ≤ S50x50.size a
  hwx0_7 : ∀ i : grid0.Coords, EltTy.bits .f32 = 32 ∨ (Rect.block (s := S50x50) S50x50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S50.size a ≤ S50.size a
  hwx0_8 : ∀ i : grid0.Coords, EltTy.bits .f32 = 32 ∨ (Rect.block (s := S50) S50.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S50x50.size a ≤ S50x50.size a
  hwx0_9 : ∀ i : grid0.Coords, EltTy.bits .f32 = 32 ∨ (Rect.block (s := S50x50) S50x50.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S50.size a ≤ S50.size a
  hwx0_10 : ∀ i : grid0.Coords, EltTy.bits .f32 = 32 ∨ (Rect.block (s := S50) S50.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S50x50.size a ≤ S50x50.size a
  hwx0_11 : ∀ i : grid0.Coords, EltTy.bits .f32 = 32 ∨ (Rect.block (s := S50x50) S50x50.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S50.size a ≤ S50.size a
  hwx0_12 : ∀ i : grid0.Coords, EltTy.bits .f32 = 32 ∨ (Rect.block (s := S50) S50.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S50x40.size a ≤ S50x40.size a
  hwx0_13 : ∀ i : grid0.Coords, EltTy.bits .f32 = 32 ∨ (Rect.block (s := S50x40) S50x40.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S40.size a ≤ S40.size a
  hwx0_14 : ∀ i : grid0.Coords, EltTy.bits .f32 = 32 ∨ (Rect.block (s := S40) S40.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S40x1.size a ≤ S40x1.size a
  hwx0_15 : ∀ i : grid0.Coords, EltTy.bits .f32 = 32 ∨ (Rect.block (s := S40x1) S40x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1.size a ≤ S1.size a
  hwx0_16 : ∀ i : grid0.Coords, EltTy.bits .f32 = 32 ∨ (Rect.block (s := S1) S1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1.size a ≤ S1x1.size a
  hwx0_17 : ∀ i : grid0.Coords, EltTy.bits .f32 = 32 ∨ (Rect.block (s := S1x1) S1x1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S10000x1.size a ≤ S2000000x1.size a
  hwx0_18 : ∀ i : grid0.Coords, EltTy.bits .f32 = 32 ∨ (Rect.block (s := S2000000x1) S10000x1.size (cc0_transform_18 i) (hinb0_18 i)).WholeWords (EltTy.packing .f32)

variable [Facts₀]

def dot_S10000x2_S2x50_S10000x50_1_0_0_1_n_n : DotDims S10000x2 S2x50 S10000x50 where
  lhsContracting := [1]
  rhsContracting := [0]
  lhsNonContracting := [0]
  rhsNonContracting := [1]
  lhsBatch := []
  rhsBatch := []
  wf := dot_S10000x2_S2x50_S10000x50_1_0_0_1_n_n_wf
def dot_S10000x50_S50x50_S10000x50_1_0_0_1_n_n : DotDims S10000x50 S50x50 S10000x50 where
  lhsContracting := [1]
  rhsContracting := [0]
  lhsNonContracting := [0]
  rhsNonContracting := [1]
  lhsBatch := []
  rhsBatch := []
  wf := dot_S10000x50_S50x50_S10000x50_1_0_0_1_n_n_wf
def dot_S10000x50_S50x40_S10000x40_1_0_0_1_n_n : DotDims S10000x50 S50x40 S10000x40 where
  lhsContracting := [1]
  rhsContracting := [0]
  lhsNonContracting := [0]
  rhsNonContracting := [1]
  lhsBatch := []
  rhsBatch := []
  wf := dot_S10000x50_S50x40_S10000x40_1_0_0_1_n_n_wf
def dot_S10000x40_S40x1_S10000x1_1_0_0_1_n_n : DotDims S10000x40 S40x1 S10000x1 where
  lhsContracting := [1]
  rhsContracting := [0]
  lhsNonContracting := [0]
  rhsNonContracting := [1]
  lhsBatch := []
  rhsBatch := []
  wf := dot_S10000x40_S40x1_S10000x1_1_0_0_1_n_n_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S50x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S50x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S50x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S50x50.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S50.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S50x50.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S50.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S50x40.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S40.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S40x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v0) S1x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v1) S10000x1.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S2000000x2 : Shape := ⟨2, ![2000000, 2]⟩
abbrev S2x50 : Shape := ⟨2, ![2, 50]⟩
abbrev S50 : Shape := ⟨1, ![50]⟩
abbrev S50x50 : Shape := ⟨2, ![50, 50]⟩
abbrev S50x40 : Shape := ⟨2, ![50, 40]⟩
abbrev S40 : Shape := ⟨1, ![40]⟩
abbrev S40x1 : Shape := ⟨2, ![40, 1]⟩
abbrev S1 : Shape := ⟨1, ![1]⟩
abbrev S2000000x50 : Shape := ⟨2, ![2000000, 50]⟩
abbrev S1x50 : Shape := ⟨2, ![1, 50]⟩
abbrev S2000000x40 : Shape := ⟨2, ![2000000, 40]⟩
abbrev S1x40 : Shape := ⟨2, ![1, 40]⟩
abbrev S2000000x1 : Shape := ⟨2, ![2000000, 1]⟩
abbrev S1x1 : Shape := ⟨2, ![1, 1]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S2000000x2, .f32⟩
  | .hbm, ⟨1, _⟩ => ⟨S2x50, .f32⟩
  | .hbm, ⟨2, _⟩ => ⟨S50, .f32⟩
  | .hbm, ⟨3, _⟩ => ⟨S50x50, .f32⟩
  | .hbm, ⟨4, _⟩ => ⟨S50, .f32⟩
  | .hbm, ⟨5, _⟩ => ⟨S50x50, .f32⟩
  | .hbm, ⟨6, _⟩ => ⟨S50, .f32⟩
  | .hbm, ⟨7, _⟩ => ⟨S50x50, .f32⟩
  | .hbm, ⟨8, _⟩ => ⟨S50, .f32⟩
  | .hbm, ⟨9, _⟩ => ⟨S50x50, .f32⟩
  | .hbm, ⟨10, _⟩ => ⟨S50, .f32⟩
  | .hbm, ⟨11, _⟩ => ⟨S50x50, .f32⟩
  | .hbm, ⟨12, _⟩ => ⟨S50, .f32⟩
  | .hbm, ⟨13, _⟩ => ⟨S50x40, .f32⟩
  | .hbm, ⟨14, _⟩ => ⟨S40, .f32⟩
  | .hbm, ⟨15, _⟩ => ⟨S40x1, .f32⟩
  | .hbm, ⟨16, _⟩ => ⟨S1, .f32⟩
  | .hbm, ⟨17, _⟩ => ⟨S1, .f32⟩
  | .hbm, ⟨18, _⟩ => ⟨S2000000x50, .f32⟩
  | .hbm, ⟨19, _⟩ => ⟨S1x50, .f32⟩
  | .hbm, ⟨20, _⟩ => ⟨S2000000x50, .f32⟩
  | .hbm, ⟨21, _⟩ => ⟨S2000000x50, .f32⟩
  | .hbm, ⟨22, _⟩ => ⟨S2000000x50, .f32⟩
  | .hbm, ⟨23, _⟩ => ⟨S2000000x50, .f32⟩
  | .hbm, ⟨24, _⟩ => ⟨S1x50, .f32⟩
  | .hbm, ⟨25, _⟩ => ⟨S2000000x50, .f32⟩
  | .hbm, ⟨26, _⟩ => ⟨S2000000x50, .f32⟩
  | .hbm, ⟨27, _⟩ => ⟨S2000000x50, .f32⟩
  | .hbm, ⟨28, _⟩ => ⟨S2000000x50, .f32⟩
  | .hbm, ⟨29, _⟩ => ⟨S1x50, .f32⟩
  | .hbm, ⟨30, _⟩ => ⟨S2000000x50, .f32⟩
  | .hbm, ⟨31, _⟩ => ⟨S2000000x50, .f32⟩
  | .hbm, ⟨32, _⟩ => ⟨S2000000x50, .f32⟩
  | .hbm, ⟨33, _⟩ => ⟨S2000000x50, .f32⟩
  | .hbm, ⟨34, _⟩ => ⟨S1x50, .f32⟩
  | .hbm, ⟨35, _⟩ => ⟨S2000000x50, .f32⟩
  | .hbm, ⟨36, _⟩ => ⟨S2000000x50, .f32⟩
  | .hbm, ⟨37, _⟩ => ⟨S2000000x50, .f32⟩
  | .hbm, ⟨38, _⟩ => ⟨S2000000x50, .f32⟩
  | .hbm, ⟨39, _⟩ => ⟨S1x50, .f32⟩
  | .hbm, ⟨40, _⟩ => ⟨S2000000x50, .f32⟩
  | .hbm, ⟨41, _⟩ => ⟨S2000000x50, .f32⟩
  | .hbm, ⟨42, _⟩ => ⟨S2000000x50, .f32⟩
  | .hbm, ⟨43, _⟩ => ⟨S2000000x50, .f32⟩
  | .hbm, ⟨44, _⟩ => ⟨S1x50, .f32⟩
  | .hbm, ⟨45, _⟩ => ⟨S2000000x50, .f32⟩
  | .hbm, ⟨46, _⟩ => ⟨S2000000x50, .f32⟩
  | .hbm, ⟨47, _⟩ => ⟨S2000000x50, .f32⟩
  | .hbm, ⟨48, _⟩ => ⟨S2000000x40, .f32⟩
  | .hbm, ⟨49, _⟩ => ⟨S1x40, .f32⟩
  | .hbm, ⟨50, _⟩ => ⟨S2000000x40, .f32⟩
  | .hbm, ⟨51, _⟩ => ⟨S2000000x40, .f32⟩
  | .hbm, ⟨52, _⟩ => ⟨S2000000x40, .f32⟩
  | .hbm, ⟨53, _⟩ => ⟨S2000000x1, .f32⟩
  | .hbm, ⟨54, _⟩ => ⟨S1x1, .f32⟩
  | .hbm, ⟨55, _⟩ => ⟨S2000000x1, .f32⟩
  | .hbm, ⟨56, _⟩ => ⟨S2000000x1, .f32⟩
  | .hbm, ⟨57, _⟩ => ⟨S2000000x1, .f32⟩
  | .hbm, ⟨58, _⟩ => ⟨S2000000x1, .f32⟩
  | .hbm, ⟨59, _⟩ => ⟨S_, .f32⟩
  | .hbm, ⟨60, _⟩ => ⟨S2000000x1, .f32⟩
  | .hbm, ⟨61, _⟩ => ⟨S2000000x1, .f32⟩
  | .hbm, ⟨62, _⟩ => ⟨S_, .f32⟩
  | .hbm, ⟨63, _⟩ => ⟨S2000000x1, .f32⟩
  | .hbm, ⟨64, _⟩ => ⟨S2000000x1, .f32⟩
  | .hbm, ⟨65, _⟩ => ⟨S1x1, .f32⟩
  | .hbm, ⟨66, _⟩ => ⟨S2000000x1, .f32⟩
  | .hbm, ⟨67, _⟩ => ⟨S2000000x1, .f32⟩
  | _, _ => ⟨S2000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst : Ref sig .tc := ⟨.hbm, 59, rfl⟩
abbrev main_v41 : Ref sig .tc := ⟨.hbm, 60, rfl⟩
abbrev main_v42 : Ref sig .tc := ⟨.hbm, 61, rfl⟩
abbrev main_cst_0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]

class Facts₀ : Prop where
  bcast_S50_S1x50_1 : S50.BroadcastsInDim S1x50 (![1] : Fin 1 → Fin S1x50.rank)
  bcast_S1x50_S2000000x50_0_1 : S1x50.BroadcastsInDim S2000000x50 (![0, 1] : Fin 2 → Fin S2000000x50.rank)
  bcast_S40_S1x40_1 : S40.BroadcastsInDim S1x40 (![1] : Fin 1 → Fin S1x40.rank)
  bcast_S1x40_S2000000x40_0_1 : S1x40.BroadcastsInDim S2000000x40 (![0, 1] : Fin 2 → Fin S2000000x40.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  bcast_S_S2000000x1 : S_.BroadcastsInDim S2000000x1 (![] : Fin 0 → Fin S2000000x1.rank)
  dot_S2000000x2_S2x50_S2000000x50_1_0_0_1_n_n_wf : DotDims.WF S2000000x2 S2x50 S2000000x50 [1] [0] [0] [1] [] []
  dot_S2000000x50_S50x50_S2000000x50_1_0_0_1_n_n_wf : DotDims.WF S2000000x50 S50x50 S2000000x50 [1] [0] [0] [1] [] []
  dot_S2000000x50_S50x40_S2000000x40_1_0_0_1_n_n_wf : DotDims.WF S2000000x50 S50x40 S2000000x40 [1] [0] [0] [1] [] []
  dot_S2000000x40_S40x1_S2000000x1_1_0_0_1_n_n_wf : DotDims.WF S2000000x40 S40x1 S2000000x1 [1] [0] [0] [1] [] []

variable [Facts₀]

def dot_S2000000x2_S2x50_S2000000x50_1_0_0_1_n_n : DotDims S2000000x2 S2x50 S2000000x50 where
  lhsContracting := [1]
  rhsContracting := [0]
  lhsNonContracting := [0]
  rhsNonContracting := [1]
  lhsBatch := []
  rhsBatch := []
  wf := dot_S2000000x2_S2x50_S2000000x50_1_0_0_1_n_n_wf
def dot_S2000000x50_S50x50_S2000000x50_1_0_0_1_n_n : DotDims S2000000x50 S50x50 S2000000x50 where
  lhsContracting := [1]
  rhsContracting := [0]
  lhsNonContracting := [0]
  rhsNonContracting := [1]
  lhsBatch := []
  rhsBatch := []
  wf := dot_S2000000x50_S50x50_S2000000x50_1_0_0_1_n_n_wf
def dot_S2000000x50_S50x40_S2000000x40_1_0_0_1_n_n : DotDims S2000000x50 S50x40 S2000000x40 where
  lhsContracting := [1]
  rhsContracting := [0]
  lhsNonContracting := [0]
  rhsNonContracting := [1]
  lhsBatch := []
  rhsBatch := []
  wf := dot_S2000000x50_S50x40_S2000000x40_1_0_0_1_n_n_wf
def dot_S2000000x40_S40x1_S2000000x1_1_0_0_1_n_n : DotDims S2000000x40 S40x1 S2000000x1 where
  lhsContracting := [1]
  rhsContracting := [0]
  lhsNonContracting := [0]
  rhsNonContracting := [1]
  lhsBatch := []
  rhsBatch := []
  wf := dot_S2000000x40_S40x1_S2000000x1_1_0_0_1_n_n_wf

class Facts : Prop extends Facts₀ where

variable [Facts]
-- ==== Proof.RowNet.lean ====
/-
  The network on ONE row, over the extended reals.

  Both programs compute, for every row `r` of the `[2000000, 2]` input, the same eight-layer perceptron of that
  row alone: seven dense layers `h ↦ tanh (h · W + b)` (widths 2 → 50 → 50 → 50 → 50 → 50 → 50 → 40), then a dense
  layer 40 → 1 followed by the logistic function, the result multiplied by the one-entry `scale`. A row's
  result depends on no other row, which is why the kernel may cut the rows into blocks of 10000. This module says
  what that perceptron is, as a function of one row and of the weight arrays; it imports no program.
-/
import Idealize.ShloMosaic.PureOps.Ideal
import Idealize.ShloMosaic.Lib.ValueIdx

noncomputable section

namespace Cert.RowNet

open Idealize.ShloMosaic Idealize.ShloMosaic.ValueIdx

/-- The pre-activation of a dense layer on one row, at output unit `n`: `∑ₖ h k · W[k, n] + b[n]`. -/
def affine {K N : ℕ} (h : Fin K → EReal) (W : (⟨2, ![K, N]⟩ : Shape).Idx → EReal)
    (b : (⟨1, ![N]⟩ : Shape).Idx → EReal) (n : Fin N) : EReal :=
  (∑ k : Fin K, h k * W (ix2 k n)) + b (ix1 n)

/-- A hidden layer on one row: the hyperbolic tangent of the pre-activation, unit by unit. -/
def hidden {K N : ℕ} (h : Fin K → EReal) (W : (⟨2, ![K, N]⟩ : Shape).Idx → EReal)
    (b : (⟨1, ![N]⟩ : Shape).Idx → EReal) : Fin N → EReal :=
  fun n => Ideal.tanh (affine h W b n)

/-- The seven hidden layers applied in turn to a row `x` of two entries: the row of 40 activations the last
    layer reads. -/
def features (x : Fin 2 → EReal)
    (W1 : (⟨2, ![2, 50]⟩ : Shape).Idx → EReal) (b1 : (⟨1, ![50]⟩ : Shape).Idx → EReal)
    (W2 : (⟨2, ![50, 50]⟩ : Shape).Idx → EReal) (b2 : (⟨1, ![50]⟩ : Shape).Idx → EReal)
    (W3 : (⟨2, ![50, 50]⟩ : Shape).Idx → EReal) (b3 : (⟨1, ![50]⟩ : Shape).Idx → EReal)
    (W4 : (⟨2, ![50, 50]⟩ : Shape).Idx → EReal) (b4 : (⟨1, ![50]⟩ : Shape).Idx → EReal)
    (W5 : (⟨2, ![50, 50]⟩ : Shape).Idx → EReal) (b5 : (⟨1, ![50]⟩ : Shape).Idx → EReal)
    (W6 : (⟨2, ![50, 50]⟩ : Shape).Idx → EReal) (b6 : (⟨1, ![50]⟩ : Shape).Idx → EReal)
    (W7 : (⟨2, ![50, 40]⟩ : Shape).Idx → EReal) (b7 : (⟨1, ![40]⟩ : Shape).Idx → EReal) : Fin 40 → EReal :=
  hidden (hidden (hidden (hidden (hidden (hidden (hidden x W1 b1) W2 b2) W3 b3) W4 b4) W5 b5) W6 b6) W7 b7

/-- The output unit on a row of 40 activations: `s · σ (h · W8 + b8)`, with `σ z = 1 / (1 + e^(-z))` and `s` the one
    entry of `scale`. -/
def output (h : Fin 40 → EReal) (W8 : (⟨2, ![40, 1]⟩ : Shape).Idx → EReal) (b8 : (⟨1, ![1]⟩ : Shape).Idx → EReal)
    (s : EReal) : EReal :=
  s * Ideal.logistic (affine h W8 b8 (0 : Fin 1))

/-- The network applied to every row of the `[2000000, 2]` input: the `[2000000, 1]` array both programs end
    holding. Entry `(r, 0)` reads row `r` of `X` and nothing else of it. -/
def rows (X : (⟨2, ![2000000, 2]⟩ : Shape).Idx → EReal)
    (W1 : (⟨2, ![2, 50]⟩ : Shape).Idx → EReal) (b1 : (⟨1, ![50]⟩ : Shape).Idx → EReal)
    (W2 : (⟨2, ![50, 50]⟩ : Shape).Idx → EReal) (b2 : (⟨1, ![50]⟩ : Shape).Idx → EReal)
    (W3 : (⟨2, ![50, 50]⟩ : Shape).Idx → EReal) (b3 : (⟨1, ![50]⟩ : Shape).Idx → EReal)
    (W4 : (⟨2, ![50, 50]⟩ : Shape).Idx → EReal) (b4 : (⟨1, ![50]⟩ : Shape).Idx → EReal)
    (W5 : (⟨2, ![50, 50]⟩ : Shape).Idx → EReal) (b5 : (⟨1, ![50]⟩ : Shape).Idx → EReal)
    (W6 : (⟨2, ![50, 50]⟩ : Shape).Idx → EReal) (b6 : (⟨1, ![50]⟩ : Shape).Idx → EReal)
    (W7 : (⟨2, ![50, 40]⟩ : Shape).Idx → EReal) (b7 : (⟨1, ![40]⟩ : Shape).Idx → EReal)
    (W8 : (⟨2, ![40, 1]⟩ : Shape).Idx → EReal) (b8 : (⟨1, ![1]⟩ : Shape).Idx → EReal)
    (s : EReal) : (⟨2, ![2000000, 1]⟩ : Shape).Idx → EReal :=
  fun i => output (features (fun k => X (ix2 (i 0 : Fin 2000000) k)) W1 b1 W2 b2 W3 b3 W4 b4 W5 b5 W6 b6 W7 b7) W8 b8 s

end Cert.RowNet

end
-- ==== Proof.KernelLayers.lean ====
/-
  One dense layer of the kernel body, read at one entry.

  The body multiplies a block of 10000 rows of activations by a weight matrix on the matrix unit (into a zero
  accumulator), adds the bias — a vector cast to one row and that row repeated down the block — and applies the
  activation. Over the extended reals a change of float format is the identity, so the entry `(p, n)` of the
  result is the row-wise layer of `RowNet` applied to row `p` of the block: it reads no other row. One
  statement per shape of product the body has (2 → 50, 50 → 50, 50 → 40, 40 → 1); the four are the same argument,
  written out at each shape.
-/
import proofs.«181123_j58763742544053_1_alg».proof.Proof.Gen.KernelIdeal
import proofs.«181123_j58763742544053_1_alg».proof.Proof.RowNet
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layers

open Cert.KernelIdeal Cert.KernelIdeal.Gen Cert.RowNet Idealize.ShloMosaic Idealize.ShloMosaic.ValueIdx

/-! ## The 2 entries of an input row to 50 units -/

theorem lhs_2x50_0 (i : S10000x50.Idx) (q : dot_S10000x2_S2x50_S10000x50_1_0_0_1_n_n.contr.Idx) :
    (dot_S10000x2_S2x50_S10000x50_1_0_0_1_n_n.lhsIdx i q 0).val = (i 0).val := by
  unfold DotDims.lhsIdx
  rw [dif_neg (show ¬(0 : Fin S10000x2.rank) ∈ dot_S10000x2_S2x50_S10000x50_1_0_0_1_n_n.lhsBatch by decide), dif_pos (show (0 : Fin S10000x2.rank) ∈ dot_S10000x2_S2x50_S10000x50_1_0_0_1_n_n.lhsNonContracting by decide)]
  rfl
theorem lhs_2x50_1 (i : S10000x50.Idx) (q : dot_S10000x2_S2x50_S10000x50_1_0_0_1_n_n.contr.Idx) :
    (dot_S10000x2_S2x50_S10000x50_1_0_0_1_n_n.lhsIdx i q 1).val = (q ⟨0, by decide⟩).val :=
  dot_S10000x2_S2x50_S10000x50_1_0_0_1_n_n.lhsIdx_val_of_single rfl i q
theorem rhs_2x50_0 (i : S10000x50.Idx) (q : dot_S10000x2_S2x50_S10000x50_1_0_0_1_n_n.contr.Idx) :
    (dot_S10000x2_S2x50_S10000x50_1_0_0_1_n_n.rhsIdx i q 0).val = (q ⟨0, by decide⟩).val :=
  dot_S10000x2_S2x50_S10000x50_1_0_0_1_n_n.rhsIdx_val_of_single rfl i q
theorem rhs_2x50_1 (i : S10000x50.Idx) (q : dot_S10000x2_S2x50_S10000x50_1_0_0_1_n_n.contr.Idx) :
    (dot_S10000x2_S2x50_S10000x50_1_0_0_1_n_n.rhsIdx i q 1).val = (i 1).val := by
  unfold DotDims.rhsIdx
  rw [dif_neg (show ¬(1 : Fin S2x50.rank) ∈ dot_S10000x2_S2x50_S10000x50_1_0_0_1_n_n.rhsBatch by decide), dif_pos (show (1 : Fin S2x50.rank) ∈ dot_S10000x2_S2x50_S10000x50_1_0_0_1_n_n.rhsNonContracting by decide)]
  rfl

/-- The product into a zero accumulator, at entry `(p, n)`: row `p` of the block against column `n` of the weights. -/
theorem product_2x50 (H : FVec Ideal S10000x2 .bf16) (W : FVec Ideal S2x50 .bf16) (p : Fin 10000) (n : Fin 50) :
    FloatOps.matmul dot_S10000x2_S2x50_S10000x50_1_0_0_1_n_n none H W (constant (F := Ideal) S10000x50 .f32 0x00000000#32) (ix2 p n)
      = ∑ k : Fin 2, H (ix2 p k) * W (ix2 k n) := by
  rw [Ideal.matmul_constant_zero_apply, ← Equiv.sum_comp (contrEquiv1 dot_S10000x2_S2x50_S10000x50_1_0_0_1_n_n 2 rfl rfl).symm]
  refine Finset.sum_congr rfl fun k _ => ?_
  have hk := contrEquiv1_symm_val dot_S10000x2_S2x50_S10000x50_1_0_0_1_n_n 2 rfl rfl k
  have el : dot_S10000x2_S2x50_S10000x50_1_0_0_1_n_n.lhsIdx (ix2 p n) ((contrEquiv1 dot_S10000x2_S2x50_S10000x50_1_0_0_1_n_n 2 rfl rfl).symm k) = ix2 p k := funext fun a => Fin.ext (by
    match a with
    | ⟨0, _⟩ => exact lhs_2x50_0 _ _
    | ⟨1, _⟩ => exact (lhs_2x50_1 _ _).trans hk)
  have er : dot_S10000x2_S2x50_S10000x50_1_0_0_1_n_n.rhsIdx (ix2 p n) ((contrEquiv1 dot_S10000x2_S2x50_S10000x50_1_0_0_1_n_n 2 rfl rfl).symm k) = ix2 k n := funext fun a => Fin.ext (by
    match a with
    | ⟨0, _⟩ => exact (rhs_2x50_0 _ _).trans hk
    | ⟨1, _⟩ => exact rhs_2x50_1 _ _)
  rw [el, er]

/-- The first hidden layer of the body at entry `(p, n)` is the row-wise hidden layer on row `p` of the input block. -/
theorem hidden_2x50 (H : FVec Ideal S10000x2 .bf16) (W : FVec Ideal S2x50 .f32) (b : FVec Ideal S50 .f32) (p : Fin 10000) (n : Fin 50) :
    tanh (addf (matmul dot_S10000x2_S2x50_S10000x50_1_0_0_1_n_n none H (truncf .bf16 W bitsLt_bf16_f32) (constant (F := Ideal) S10000x50 .f32 0x00000000#32))
        (broadcastTo S10000x50 (shapeCast S1x50 b shapeCasts_S50_S1x50) broadcasts_S1x50_S10000x50)) (ix2 p n)
      = hidden (fun k => H (ix2 p k)) W b n := by
  show Ideal.tanh (FloatOps.matmul dot_S10000x2_S2x50_S10000x50_1_0_0_1_n_n none H (truncf .bf16 W bitsLt_bf16_f32) (constant (F := Ideal) S10000x50 .f32 0x00000000#32) (ix2 p n)
      + broadcastTo S10000x50 (shapeCast S1x50 b shapeCasts_S50_S1x50) broadcasts_S1x50_S10000x50 (ix2 p n)) = _
  rw [product_2x50, broadcastTo_1b_ab_apply, shapeCast_a_1a_apply]
  rfl

/-! ## 50 activations to 50 units -/

theorem lhs_50x50_0 (i : S10000x50.Idx) (q : dot_S10000x50_S50x50_S10000x50_1_0_0_1_n_n.contr.Idx) :
    (dot_S10000x50_S50x50_S10000x50_1_0_0_1_n_n.lhsIdx i q 0).val = (i 0).val := by
  unfold DotDims.lhsIdx
  rw [dif_neg (show ¬(0 : Fin S10000x50.rank) ∈ dot_S10000x50_S50x50_S10000x50_1_0_0_1_n_n.lhsBatch by decide), dif_pos (show (0 : Fin S10000x50.rank) ∈ dot_S10000x50_S50x50_S10000x50_1_0_0_1_n_n.lhsNonContracting by decide)]
  rfl
theorem lhs_50x50_1 (i : S10000x50.Idx) (q : dot_S10000x50_S50x50_S10000x50_1_0_0_1_n_n.contr.Idx) :
    (dot_S10000x50_S50x50_S10000x50_1_0_0_1_n_n.lhsIdx i q 1).val = (q ⟨0, by decide⟩).val :=
  dot_S10000x50_S50x50_S10000x50_1_0_0_1_n_n.lhsIdx_val_of_single rfl i q
theorem rhs_50x50_0 (i : S10000x50.Idx) (q : dot_S10000x50_S50x50_S10000x50_1_0_0_1_n_n.contr.Idx) :
    (dot_S10000x50_S50x50_S10000x50_1_0_0_1_n_n.rhsIdx i q 0).val = (q ⟨0, by decide⟩).val :=
  dot_S10000x50_S50x50_S10000x50_1_0_0_1_n_n.rhsIdx_val_of_single rfl i q
theorem rhs_50x50_1 (i : S10000x50.Idx) (q : dot_S10000x50_S50x50_S10000x50_1_0_0_1_n_n.contr.Idx) :
    (dot_S10000x50_S50x50_S10000x50_1_0_0_1_n_n.rhsIdx i q 1).val = (i 1).val := by
  unfold DotDims.rhsIdx
  rw [dif_neg (show ¬(1 : Fin S50x50.rank) ∈ dot_S10000x50_S50x50_S10000x50_1_0_0_1_n_n.rhsBatch by decide), dif_pos (show (1 : Fin S50x50.rank) ∈ dot_S10000x50_S50x50_S10000x50_1_0_0_1_n_n.rhsNonContracting by decide)]
  rfl

/-- The product into a zero accumulator, at entry `(p, n)`: row `p` of the block against column `n` of the weights. -/
theorem product_50x50 (H : FVec Ideal S10000x50 .bf16) (W : FVec Ideal S50x50 .bf16) (p : Fin 10000) (n : Fin 50) :
    FloatOps.matmul dot_S10000x50_S50x50_S10000x50_1_0_0_1_n_n none H W (constant (F := Ideal) S10000x50 .f32 0x00000000#32) (ix2 p n)
      = ∑ k : Fin 50, H (ix2 p k) * W (ix2 k n) := by
  rw [Ideal.matmul_constant_zero_apply, ← Equiv.sum_comp (contrEquiv1 dot_S10000x50_S50x50_S10000x50_1_0_0_1_n_n 50 rfl rfl).symm]
  refine Finset.sum_congr rfl fun k _ => ?_
  have hk := contrEquiv1_symm_val dot_S10000x50_S50x50_S10000x50_1_0_0_1_n_n 50 rfl rfl k
  have el : dot_S10000x50_S50x50_S10000x50_1_0_0_1_n_n.lhsIdx (ix2 p n) ((contrEquiv1 dot_S10000x50_S50x50_S10000x50_1_0_0_1_n_n 50 rfl rfl).symm k) = ix2 p k := funext fun a => Fin.ext (by
    match a with
    | ⟨0, _⟩ => exact lhs_50x50_0 _ _
    | ⟨1, _⟩ => exact (lhs_50x50_1 _ _).trans hk)
  have er : dot_S10000x50_S50x50_S10000x50_1_0_0_1_n_n.rhsIdx (ix2 p n) ((contrEquiv1 dot_S10000x50_S50x50_S10000x50_1_0_0_1_n_n 50 rfl rfl).symm k) = ix2 k n := funext fun a => Fin.ext (by
    match a with
    | ⟨0, _⟩ => exact (rhs_50x50_0 _ _).trans hk
    | ⟨1, _⟩ => exact rhs_50x50_1 _ _)
  rw [el, er]

/-- A middle hidden layer of the body at entry `(p, n)` is the row-wise hidden layer on row `p` of the block. -/
theorem hidden_50x50 (H : FVec Ideal S10000x50 .bf16) (W : FVec Ideal S50x50 .f32) (b : FVec Ideal S50 .f32) (p : Fin 10000) (n : Fin 50) :
    tanh (addf (matmul dot_S10000x50_S50x50_S10000x50_1_0_0_1_n_n none H (truncf .bf16 W bitsLt_bf16_f32) (constant (F := Ideal) S10000x50 .f32 0x00000000#32))
        (broadcastTo S10000x50 (shapeCast S1x50 b shapeCasts_S50_S1x50) broadcasts_S1x50_S10000x50)) (ix2 p n)
      = hidden (fun k => H (ix2 p k)) W b n := by
  show Ideal.tanh (FloatOps.matmul dot_S10000x50_S50x50_S10000x50_1_0_0_1_n_n none H (truncf .bf16 W bitsLt_bf16_f32) (constant (F := Ideal) S10000x50 .f32 0x00000000#32) (ix2 p n)
      + broadcastTo S10000x50 (shapeCast S1x50 b shapeCasts_S50_S1x50) broadcasts_S1x50_S10000x50 (ix2 p n)) = _
  rw [product_50x50, broadcastTo_1b_ab_apply, shapeCast_a_1a_apply]
  rfl

/-! ## 50 activations to 40 units -/

theorem lhs_50x40_0 (i : S10000x40.Idx) (q : dot_S10000x50_S50x40_S10000x40_1_0_0_1_n_n.contr.Idx) :
    (dot_S10000x50_S50x40_S10000x40_1_0_0_1_n_n.lhsIdx i q 0).val = (i 0).val := by
  unfold DotDims.lhsIdx
  rw [dif_neg (show ¬(0 : Fin S10000x50.rank) ∈ dot_S10000x50_S50x40_S10000x40_1_0_0_1_n_n.lhsBatch by decide), dif_pos (show (0 : Fin S10000x50.rank) ∈ dot_S10000x50_S50x40_S10000x40_1_0_0_1_n_n.lhsNonContracting by decide)]
  rfl
theorem lhs_50x40_1 (i : S10000x40.Idx) (q : dot_S10000x50_S50x40_S10000x40_1_0_0_1_n_n.contr.Idx) :
    (dot_S10000x50_S50x40_S10000x40_1_0_0_1_n_n.lhsIdx i q 1).val = (q ⟨0, by decide⟩).val :=
  dot_S10000x50_S50x40_S10000x40_1_0_0_1_n_n.lhsIdx_val_of_single rfl i q
theorem rhs_50x40_0 (i : S10000x40.Idx) (q : dot_S10000x50_S50x40_S10000x40_1_0_0_1_n_n.contr.Idx) :
    (dot_S10000x50_S50x40_S10000x40_1_0_0_1_n_n.rhsIdx i q 0).val = (q ⟨0, by decide⟩).val :=
  dot_S10000x50_S50x40_S10000x40_1_0_0_1_n_n.rhsIdx_val_of_single rfl i q
theorem rhs_50x40_1 (i : S10000x40.Idx) (q : dot_S10000x50_S50x40_S10000x40_1_0_0_1_n_n.contr.Idx) :
    (dot_S10000x50_S50x40_S10000x40_1_0_0_1_n_n.rhsIdx i q 1).val = (i 1).val := by
  unfold DotDims.rhsIdx
  rw [dif_neg (show ¬(1 : Fin S50x40.rank) ∈ dot_S10000x50_S50x40_S10000x40_1_0_0_1_n_n.rhsBatch by decide), dif_pos (show (1 : Fin S50x40.rank) ∈ dot_S10000x50_S50x40_S10000x40_1_0_0_1_n_n.rhsNonContracting by decide)]
  rfl

/-- The product into a zero accumulator, at entry `(p, n)`: row `p` of the block against column `n` of the weights. -/
theorem product_50x40 (H : FVec Ideal S10000x50 .bf16) (W : FVec Ideal S50x40 .bf16) (p : Fin 10000) (n : Fin 40) :
    FloatOps.matmul dot_S10000x50_S50x40_S10000x40_1_0_0_1_n_n none H W (constant (F := Ideal) S10000x40 .f32 0x00000000#32) (ix2 p n)
      = ∑ k : Fin 50, H (ix2 p k) * W (ix2 k n) := by
  rw [Ideal.matmul_constant_zero_apply, ← Equiv.sum_comp (contrEquiv1 dot_S10000x50_S50x40_S10000x40_1_0_0_1_n_n 50 rfl rfl).symm]
  refine Finset.sum_congr rfl fun k _ => ?_
  have hk := contrEquiv1_symm_val dot_S10000x50_S50x40_S10000x40_1_0_0_1_n_n 50 rfl rfl k
  have el : dot_S10000x50_S50x40_S10000x40_1_0_0_1_n_n.lhsIdx (ix2 p n) ((contrEquiv1 dot_S10000x50_S50x40_S10000x40_1_0_0_1_n_n 50 rfl rfl).symm k) = ix2 p k := funext fun a => Fin.ext (by
    match a with
    | ⟨0, _⟩ => exact lhs_50x40_0 _ _
    | ⟨1, _⟩ => exact (lhs_50x40_1 _ _).trans hk)
  have er : dot_S10000x50_S50x40_S10000x40_1_0_0_1_n_n.rhsIdx (ix2 p n) ((contrEquiv1 dot_S10000x50_S50x40_S10000x40_1_0_0_1_n_n 50 rfl rfl).symm k) = ix2 k n := funext fun a => Fin.ext (by
    match a with
    | ⟨0, _⟩ => exact (rhs_50x40_0 _ _).trans hk
    | ⟨1, _⟩ => exact rhs_50x40_1 _ _)
  rw [el, er]

/-- The last hidden layer of the body at entry `(p, n)` is the row-wise hidden layer on row `p` of the block. -/
theorem hidden_50x40 (H : FVec Ideal S10000x50 .bf16) (W : FVec Ideal S50x40 .f32) (b : FVec Ideal S40 .f32) (p : Fin 10000) (n : Fin 40) :
    tanh (addf (matmul dot_S10000x50_S50x40_S10000x40_1_0_0_1_n_n none H (truncf .bf16 W bitsLt_bf16_f32) (constant (F := Ideal) S10000x40 .f32 0x00000000#32))
        (broadcastTo S10000x40 (shapeCast S1x40 b shapeCasts_S40_S1x40) broadcasts_S1x40_S10000x40)) (ix2 p n)
      = hidden (fun k => H (ix2 p k)) W b n := by
  show Ideal.tanh (FloatOps.matmul dot_S10000x50_S50x40_S10000x40_1_0_0_1_n_n none H (truncf .bf16 W bitsLt_bf16_f32) (constant (F := Ideal) S10000x40 .f32 0x00000000#32) (ix2 p n)
      + broadcastTo S10000x40 (shapeCast S1x40 b shapeCasts_S40_S1x40) broadcasts_S1x40_S10000x40 (ix2 p n)) = _
  rw [product_50x40, broadcastTo_1b_ab_apply, shapeCast_a_1a_apply]
  rfl

/-! ## 40 activations to the one output unit -/

theorem lhs_40x1_0 (i : S10000x1.Idx) (q : dot_S10000x40_S40x1_S10000x1_1_0_0_1_n_n.contr.Idx) :
    (dot_S10000x40_S40x1_S10000x1_1_0_0_1_n_n.lhsIdx i q 0).val = (i 0).val := by
  unfold DotDims.lhsIdx
  rw [dif_neg (show ¬(0 : Fin S10000x40.rank) ∈ dot_S10000x40_S40x1_S10000x1_1_0_0_1_n_n.lhsBatch by decide), dif_pos (show (0 : Fin S10000x40.rank) ∈ dot_S10000x40_S40x1_S10000x1_1_0_0_1_n_n.lhsNonContracting by decide)]
  rfl
theorem lhs_40x1_1 (i : S10000x1.Idx) (q : dot_S10000x40_S40x1_S10000x1_1_0_0_1_n_n.contr.Idx) :
    (dot_S10000x40_S40x1_S10000x1_1_0_0_1_n_n.lhsIdx i q 1).val = (q ⟨0, by decide⟩).val :=
  dot_S10000x40_S40x1_S10000x1_1_0_0_1_n_n.lhsIdx_val_of_single rfl i q
theorem rhs_40x1_0 (i : S10000x1.Idx) (q : dot_S10000x40_S40x1_S10000x1_1_0_0_1_n_n.contr.Idx) :
    (dot_S10000x40_S40x1_S10000x1_1_0_0_1_n_n.rhsIdx i q 0).val = (q ⟨0, by decide⟩).val :=
  dot_S10000x40_S40x1_S10000x1_1_0_0_1_n_n.rhsIdx_val_of_single rfl i q
theorem rhs_40x1_1 (i : S10000x1.Idx) (q : dot_S10000x40_S40x1_S10000x1_1_0_0_1_n_n.contr.Idx) :
    (dot_S10000x40_S40x1_S10000x1_1_0_0_1_n_n.rhsIdx i q 1).val = (i 1).val := by
  unfold DotDims.rhsIdx
  rw [dif_neg (show ¬(1 : Fin S40x1.rank) ∈ dot_S10000x40_S40x1_S10000x1_1_0_0_1_n_n.rhsBatch by decide), dif_pos (show (1 : Fin S40x1.rank) ∈ dot_S10000x40_S40x1_S10000x1_1_0_0_1_n_n.rhsNonContracting by decide)]
  rfl

/-- The product into a zero accumulator, at entry `(p, n)`: row `p` of the block against the one column of the weights. -/
theorem product_40x1 (H : FVec Ideal S10000x40 .bf16) (W : FVec Ideal S40x1 .bf16) (p : Fin 10000) (n : Fin 1) :
    FloatOps.matmul dot_S10000x40_S40x1_S10000x1_1_0_0_1_n_n none H W (constant (F := Ideal) S10000x1 .f32 0x00000000#32) (ix2 p n)
      = ∑ k : Fin 40, H (ix2 p k) * W (ix2 k n) := by
  rw [Ideal.matmul_constant_zero_apply, ← Equiv.sum_comp (contrEquiv1 dot_S10000x40_S40x1_S10000x1_1_0_0_1_n_n 40 rfl rfl).symm]
  refine Finset.sum_congr rfl fun k _ => ?_
  have hk := contrEquiv1_symm_val dot_S10000x40_S40x1_S10000x1_1_0_0_1_n_n 40 rfl rfl k
  have el : dot_S10000x40_S40x1_S10000x1_1_0_0_1_n_n.lhsIdx (ix2 p n) ((contrEquiv1 dot_S10000x40_S40x1_S10000x1_1_0_0_1_n_n 40 rfl rfl).symm k) = ix2 p k := funext fun a => Fin.ext (by
    match a with
    | ⟨0, _⟩ => exact lhs_40x1_0 _ _
    | ⟨1, _⟩ => exact (lhs_40x1_1 _ _).trans hk)
  have er : dot_S10000x40_S40x1_S10000x1_1_0_0_1_n_n.rhsIdx (ix2 p n) ((contrEquiv1 dot_S10000x40_S40x1_S10000x1_1_0_0_1_n_n 40 rfl rfl).symm k) = ix2 k n := funext fun a => Fin.ext (by
    match a with
    | ⟨0, _⟩ => exact (rhs_40x1_0 _ _).trans hk
    | ⟨1, _⟩ => exact rhs_40x1_1 _ _)
  rw [el, er]

/-- The end of the body at entry `(p, 0)`: the logistic function of the last pre-activation, times the scale's one
    entry (a `[1, 1]` array repeated down the block), is the row-wise output unit on row `p` of the block. -/
theorem output_40x1 (H : FVec Ideal S10000x40 .bf16) (W : FVec Ideal S40x1 .f32) (b : FVec Ideal S1 .f32) (s : FVec Ideal S1x1 .f32) (p : Fin 10000) :
    mulf (broadcastTo S10000x1 (shapeCast S1x1 s shapeCasts_S1x1_S1x1) broadcasts_S1x1_S10000x1)
        (logistic (addf (matmul dot_S10000x40_S40x1_S10000x1_1_0_0_1_n_n none H (truncf .bf16 W bitsLt_bf16_f32) (constant (F := Ideal) S10000x1 .f32 0x00000000#32))
          (broadcastTo S10000x1 (shapeCast S1x1 b shapeCasts_S1_S1x1) broadcasts_S1x1_S10000x1))) (ix2 p (0 : Fin 1))
      = output (fun k => H (ix2 p k)) W b (s (ix2 (0 : Fin 1) (0 : Fin 1))) := by
  show broadcastTo S10000x1 (shapeCast S1x1 s shapeCasts_S1x1_S1x1) broadcasts_S1x1_S10000x1 (ix2 p (0 : Fin 1))
      * Ideal.logistic (FloatOps.matmul dot_S10000x40_S40x1_S10000x1_1_0_0_1_n_n none H (truncf .bf16 W bitsLt_bf16_f32) (constant (F := Ideal) S10000x1 .f32 0x00000000#32) (ix2 p (0 : Fin 1))
        + broadcastTo S10000x1 (shapeCast S1x1 b shapeCasts_S1_S1x1) broadcasts_S1x1_S10000x1 (ix2 p (0 : Fin 1))) = _
  rw [product_40x1, broadcastTo_1b_ab_apply, broadcastTo_1b_ab_apply, shapeCast_a_1a_apply, shapeCast_self]
  rfl

end Cert.KernelIdeal.Layers

end
-- ==== Proof.KernelRow.lean ====
/-
  The kernel body at one row of a block.

  The body's arithmetic is two pure terms: the first four hidden layers of the block of input rows, and, from
  their result, the last three hidden layers, the output unit and the scale. Entry `(p, 0)` of the stored value is
  the network of `RowNet` applied to row `p` of the input block and to the weight arrays as loaded: each layer
  reads only row `p` of the layer before (`KernelLayers`), so the layers compose row by row.
-/
import proofs.«181123_j58763742544053_1_alg».proof.Proof.Gen.KernelIdeal.Skeleton
import proofs.«181123_j58763742544053_1_alg».proof.Proof.KernelLayers

noncomputable section

namespace Cert.KernelIdeal.Layers

open Cert.KernelIdeal Cert.KernelIdeal.Gen Cert.RowNet Idealize.ShloMosaic Idealize.ShloMosaic.ValueIdx

/-- The first term: entry `(p, n)` is unit `n` of the fourth hidden layer on row `p` of the input block. -/
theorem first_four_row (x : FVec Ideal S10000x2 .f32) (W1 : FVec Ideal S2x50 .f32) (b1 : FVec Ideal S50 .f32)
    (W2 : FVec Ideal S50x50 .f32) (b2 : FVec Ideal S50 .f32) (W3 : FVec Ideal S50x50 .f32) (b3 : FVec Ideal S50 .f32)
    (W4 : FVec Ideal S50x50 .f32) (b4 : FVec Ideal S50 .f32) (p : Fin 10000) (n : Fin 50) :
    k0_pay2 (F := Ideal) x W1 b1 W2 b2 W3 b3 W4 b4 (ix2 p n)
      = hidden (hidden (hidden (hidden (fun k => x (ix2 p k)) W1 b1) W2 b2) W3 b3) W4 b4 n := by
  unfold k0_pay2
  refine (hidden_50x50 _ W4 b4 p n).trans ?_
  refine congrArg (fun h => hidden h W4 b4 n) (funext fun k3 => ?_)
  refine (hidden_50x50 _ W3 b3 p k3).trans ?_
  refine congrArg (fun h => hidden h W3 b3 k3) (funext fun k2 => ?_)
  refine (hidden_50x50 _ W2 b2 p k2).trans ?_
  refine congrArg (fun h => hidden h W2 b2 k2) (funext fun k1 => ?_)
  exact hidden_2x50 _ W1 b1 p k1

/-- The second term: entry `(p, 0)` is the output unit on the last three hidden layers of row `p` of its operand. -/
theorem last_four_row (h4 : FVec Ideal S10000x50 .bf16) (W5 : FVec Ideal S50x50 .f32) (b5 : FVec Ideal S50 .f32)
    (W6 : FVec Ideal S50x50 .f32) (b6 : FVec Ideal S50 .f32) (W7 : FVec Ideal S50x40 .f32) (b7 : FVec Ideal S40 .f32)
    (W8 : FVec Ideal S40x1 .f32) (b8 : FVec Ideal S1 .f32) (s : FVec Ideal S1x1 .f32) (p : Fin 10000) :
    k0_pay1 (F := Ideal) h4 W5 b5 W6 b6 W7 b7 W8 b8 s (ix2 p (0 : Fin 1))
      = output (hidden (hidden (hidden (fun k => h4 (ix2 p k)) W5 b5) W6 b6) W7 b7) W8 b8 (s (ix2 (0 : Fin 1) (0 : Fin 1))) := by
  unfold k0_pay1
  refine (output_40x1 _ W8 b8 s p).trans ?_
  refine congrArg (fun h => output h W8 b8 (s (ix2 (0 : Fin 1) (0 : Fin 1)))) (funext fun k7 => ?_)
  refine (hidden_50x40 _ W7 b7 p k7).trans ?_
  refine congrArg (fun h => hidden h W7 b7 k7) (funext fun k6 => ?_)
  refine (hidden_50x50 _ W6 b6 p k6).trans ?_
  refine congrArg (fun h => hidden h W6 b6 k6) (funext fun k5 => ?_)
  exact hidden_50x50 h4 W5 b5 p k5

/-- The stored value at entry `(p, 0)`: the whole network on row `p` of the input block. -/
theorem body_row (x : FVec Ideal S10000x2 .f32) (W1 : FVec Ideal S2x50 .f32) (b1 : FVec Ideal S50 .f32)
    (W2 : FVec Ideal S50x50 .f32) (b2 : FVec Ideal S50 .f32) (W3 : FVec Ideal S50x50 .f32) (b3 : FVec Ideal S50 .f32)
    (W4 : FVec Ideal S50x50 .f32) (b4 : FVec Ideal S50 .f32) (W5 : FVec Ideal S50x50 .f32) (b5 : FVec Ideal S50 .f32)
    (W6 : FVec Ideal S50x50 .f32) (b6 : FVec Ideal S50 .f32) (W7 : FVec Ideal S50x40 .f32) (b7 : FVec Ideal S40 .f32)
    (W8 : FVec Ideal S40x1 .f32) (b8 : FVec Ideal S1 .f32) (s : FVec Ideal S1x1 .f32) (p : Fin 10000) :
    k0_pay1 (F := Ideal) (k0_pay2 (F := Ideal) x W1 b1 W2 b2 W3 b3 W4 b4) W5 b5 W6 b6 W7 b7 W8 b8 s (ix2 p (0 : Fin 1))
      = output (features (fun k => x (ix2 p k)) W1 b1 W2 b2 W3 b3 W4 b4 W5 b5 W6 b6 W7 b7) W8 b8 (s (ix2 (0 : Fin 1) (0 : Fin 1))) := by
  refine (last_four_row _ W5 b5 W6 b6 W7 b7 W8 b8 s p).trans ?_
  have e : (fun k => k0_pay2 (F := Ideal) x W1 b1 W2 b2 W3 b3 W4 b4 (ix2 p k))
      = hidden (hidden (hidden (hidden (fun k => x (ix2 p k)) W1 b1) W2 b2) W3 b3) W4 b4 :=
    funext fun k => first_four_row x W1 b1 W2 b2 W3 b3 W4 b4 p k
  rw [e]
  rfl

end Cert.KernelIdeal.Layers

end
-- ==== Proof.KernelArray.lean ====
/-
  From the kernel's blocks to its result array.

  The grid has 200 points. Point `t` stages rows `10000 t … 10000 t + 9999` of the input, finds every weight, bias and
  the scale whole in its buffer (their index maps are constantly zero), and writes back rows `10000 t … 10000 t + 9999`
  of the result. What it writes is the network of `RowNet` on each of its rows (`KernelRow`), which is the
  restriction to those rows of ONE array: the network applied to every row of the input. The 200 blocks tile the
  result, so after the run the result array is that array. The scale reaches the kernel as a `[1, 1]` array made
  from the `[1]` argument by a reshape before the launch; its one entry is the argument's.
-/
import proofs.«181123_j58763742544053_1_alg».proof.Proof.Gen.KernelIdeal.Value
import proofs.«181123_j58763742544053_1_alg».proof.Proof.KernelRow
import Idealize.ShloMosaic.Lib.StableHlo.Run

noncomputable section

namespace Cert.KernelIdeal.Blocks

open Cert.KernelIdeal Cert.KernelIdeal.Gen Cert.KernelIdeal.Layers Cert.RowNet
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-! ## Where each window's block sits, decided over the 200 grid points -/

/-- The input's and the result's block at point `t` is block `t` along the rows, and the only one along the columns. -/
theorem rows_index : ∀ t : Fin cfg0.N, win0_0.index t (0 : Fin 2) = t.val ∧ win0_0.index t (1 : Fin 2) = 0
    ∧ win0_18.index t (0 : Fin 2) = t.val ∧ win0_18.index t (1 : Fin 2) = 0 :=
  (by decide +kernel : ∀ t : Fin grid0.N, _)

theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 1) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 1) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 1) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 1) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 1) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)
theorem index12 : ∀ t : Fin cfg0.N, win0_12.index t (0 : Fin 1) = 0 :=
  (by decide +kernel : ∀ t : Fin grid0.N, _)
theorem index13 : ∀ t : Fin cfg0.N, win0_13.index t (0 : Fin 2) = 0 ∧ win0_13.index t (1 : Fin 2) = 0 :=
  (by decide +kernel : ∀ t : Fin grid0.N, _)
theorem index14 : ∀ t : Fin cfg0.N, win0_14.index t (0 : Fin 1) = 0 :=
  (by decide +kernel : ∀ t : Fin grid0.N, _)
theorem index15 : ∀ t : Fin cfg0.N, win0_15.index t (0 : Fin 2) = 0 ∧ win0_15.index t (1 : Fin 2) = 0 :=
  (by decide +kernel : ∀ t : Fin grid0.N, _)
theorem index16 : ∀ t : Fin cfg0.N, win0_16.index t (0 : Fin 1) = 0 :=
  (by decide +kernel : ∀ t : Fin grid0.N, _)
theorem index17 : ∀ t : Fin cfg0.N, win0_17.index t (0 : Fin 2) = 0 ∧ win0_17.index t (1 : Fin 2) = 0 :=
  (by decide +kernel : ∀ t : Fin grid0.N, _)

/-! ## The blocks the body loads -/

/-- Row `p` of the input's block at point `t` is row `10000 t + p` of the input array. -/
theorem input_block (c : Dev nD) (t : Fin cfg0.N) (p : Fin 10000) (k : Fin 2) (i : Fin 2000000) (hi : i.val = t.val * 10000 + p.val) :
    (iblk m c 0 t : FVec Ideal S10000x2 .f32) (ix2 p k) = (V m c main_arg0 : FVec Ideal S2000000x2 .f32) (ix2 i k) := by
  obtain ⟨h0, h1, -, -⟩ := rows_index t
  unfold iblk
  rw [View.read_apply]
  show V m c main_arg0 _ = V m c main_arg0 _
  congr 1
  funext a
  apply Fin.ext
  match a with
  | ⟨0, _⟩ => show win0_0.index t 0 * 10000 + 1 * p.val = i.val; rw [h0, hi]; omega
  | ⟨1, _⟩ => show win0_0.index t 1 * 2 + 1 * k.val = k.val; rw [h1]; omega

/-- A weight, a bias, the scale: its window's block at every point is the whole array. -/
theorem resident1 (c : Dev nD) (t : Fin cfg0.N) : (iblk m c 1 t : FVec Ideal S2x50 .f32) = V m c main_arg1 := by
  obtain ⟨h0, h1⟩ := index1 t
  funext y
  unfold iblk
  rw [View.read_apply]
  show V m c main_arg1 _ = V m c main_arg1 y
  congr 1
  funext a
  apply Fin.ext
  match a with
  | ⟨0, _⟩ => show win0_1.index t 0 * 2 + 1 * (y 0).val = (y 0).val; rw [h0]; omega
  | ⟨1, _⟩ => show win0_1.index t 1 * 50 + 1 * (y 1).val = (y 1).val; rw [h1]; omega
theorem resident2 (c : Dev nD) (t : Fin cfg0.N) : (iblk m c 2 t : FVec Ideal S50 .f32) = V m c main_arg2 := by
  have h0 := index2 t
  funext y
  unfold iblk
  rw [View.read_apply]
  show V m c main_arg2 _ = V m c main_arg2 y
  congr 1
  funext a
  apply Fin.ext
  match a with
  | ⟨0, _⟩ => show win0_2.index t 0 * 50 + 1 * (y 0).val = (y 0).val; rw [h0]; omega
theorem resident3 (c : Dev nD) (t : Fin cfg0.N) : (iblk m c 3 t : FVec Ideal S50x50 .f32) = V m c main_arg3 := by
  obtain ⟨h0, h1⟩ := index3 t
  funext y
  unfold iblk
  rw [View.read_apply]
  show V m c main_arg3 _ = V m c main_arg3 y
  congr 1
  funext a
  apply Fin.ext
  match a with
  | ⟨0, _⟩ => show win0_3.index t 0 * 50 + 1 * (y 0).val = (y 0).val; rw [h0]; omega
  | ⟨1, _⟩ => show win0_3.index t 1 * 50 + 1 * (y 1).val = (y 1).val; rw [h1]; omega
theorem resident4 (c : Dev nD) (t : Fin cfg0.N) : (iblk m c 4 t : FVec Ideal S50 .f32) = V m c main_arg4 := by
  have h0 := index4 t
  funext y
  unfold iblk
  rw [View.read_apply]
  show V m c main_arg4 _ = V m c main_arg4 y
  congr 1
  funext a
  apply Fin.ext
  match a with
  | ⟨0, _⟩ => show win0_4.index t 0 * 50 + 1 * (y 0).val = (y 0).val; rw [h0]; omega
theorem resident5 (c : Dev nD) (t : Fin cfg0.N) : (iblk m c 5 t : FVec Ideal S50x50 .f32) = V m c main_arg5 := by
  obtain ⟨h0, h1⟩ := index5 t
  funext y
  unfold iblk
  rw [View.read_apply]
  show V m c main_arg5 _ = V m c main_arg5 y
  congr 1
  funext a
  apply Fin.ext
  match a with
  | ⟨0, _⟩ => show win0_5.index t 0 * 50 + 1 * (y 0).val = (y 0).val; rw [h0]; omega
  | ⟨1, _⟩ => show win0_5.index t 1 * 50 + 1 * (y 1).val = (y 1).val; rw [h1]; omega
theorem resident6 (c : Dev nD) (t : Fin cfg0.N) : (iblk m c 6 t : FVec Ideal S50 .f32) = V m c main_arg6 := by
  have h0 := index6 t
  funext y
  unfold iblk
  rw [View.read_apply]
  show V m c main_arg6 _ = V m c main_arg6 y
  congr 1
  funext a
  apply Fin.ext
  match a with
  | ⟨0, _⟩ => show win0_6.index t 0 * 50 + 1 * (y 0).val = (y 0).val; rw [h0]; omega
theorem resident7 (c : Dev nD) (t : Fin cfg0.N) : (iblk m c 7 t : FVec Ideal S50x50 .f32) = V m c main_arg7 := by
  obtain ⟨h0, h1⟩ := index7 t
  funext y
  unfold iblk
  rw [View.read_apply]
  show V m c main_arg7 _ = V m c main_arg7 y
  congr 1
  funext a
  apply Fin.ext
  match a with
  | ⟨0, _⟩ => show win0_7.index t 0 * 50 + 1 * (y 0).val = (y 0).val; rw [h0]; omega
  | ⟨1, _⟩ => show win0_7.index t 1 * 50 + 1 * (y 1).val = (y 1).val; rw [h1]; omega
theorem resident8 (c : Dev nD) (t : Fin cfg0.N) : (iblk m c 8 t : FVec Ideal S50 .f32) = V m c main_arg8 := by
  have h0 := index8 t
  funext y
  unfold iblk
  rw [View.read_apply]
  show V m c main_arg8 _ = V m c main_arg8 y
  congr 1
  funext a
  apply Fin.ext
  match a with
  | ⟨0, _⟩ => show win0_8.index t 0 * 50 + 1 * (y 0).val = (y 0).val; rw [h0]; omega
theorem resident9 (c : Dev nD) (t : Fin cfg0.N) : (iblk m c 9 t : FVec Ideal S50x50 .f32) = V m c main_arg9 := by
  obtain ⟨h0, h1⟩ := index9 t
  funext y
  unfold iblk
  rw [View.read_apply]
  show V m c main_arg9 _ = V m c main_arg9 y
  congr 1
  funext a
  apply Fin.ext
  match a with
  | ⟨0, _⟩ => show win0_9.index t 0 * 50 + 1 * (y 0).val = (y 0).val; rw [h0]; omega
  | ⟨1, _⟩ => show win0_9.index t 1 * 50 + 1 * (y 1).val = (y 1).val; rw [h1]; omega
theorem resident10 (c : Dev nD) (t : Fin cfg0.N) : (iblk m c 10 t : FVec Ideal S50 .f32) = V m c main_arg10 := by
  have h0 := index10 t
  funext y
  unfold iblk
  rw [View.read_apply]
  show V m c main_arg10 _ = V m c main_arg10 y
  congr 1
  funext a
  apply Fin.ext
  match a with
  | ⟨0, _⟩ => show win0_10.index t 0 * 50 + 1 * (y 0).val = (y 0).val; rw [h0]; omega
theorem resident11 (c : Dev nD) (t : Fin cfg0.N) : (iblk m c 11 t : FVec Ideal S50x50 .f32) = V m c main_arg11 := by
  obtain ⟨h0, h1⟩ := index11 t
  funext y
  unfold iblk
  rw [View.read_apply]
  show V m c main_arg11 _ = V m c main_arg11 y
  congr 1
  funext a
  apply Fin.ext
  match a with
  | ⟨0, _⟩ => show win0_11.index t 0 * 50 + 1 * (y 0).val = (y 0).val; rw [h0]; omega
  | ⟨1, _⟩ => show win0_11.index t 1 * 50 + 1 * (y 1).val = (y 1).val; rw [h1]; omega
theorem resident12 (c : Dev nD) (t : Fin cfg0.N) : (iblk m c 12 t : FVec Ideal S50 .f32) = V m c main_arg12 := by
  have h0 := index12 t
  funext y
  unfold iblk
  rw [View.read_apply]
  show V m c main_arg12 _ = V m c main_arg12 y
  congr 1
  funext a
  apply Fin.ext
  match a with
  | ⟨0, _⟩ => show win0_12.index t 0 * 50 + 1 * (y 0).val = (y 0).val; rw [h0]; omega
theorem resident13 (c : Dev nD) (t : Fin cfg0.N) : (iblk m c 13 t : FVec Ideal S50x40 .f32) = V m c main_arg13 := by
  obtain ⟨h0, h1⟩ := index13 t
  funext y
  unfold iblk
  rw [View.read_apply]
  show V m c main_arg13 _ = V m c main_arg13 y
  congr 1
  funext a
  apply Fin.ext
  match a with
  | ⟨0, _⟩ => show win0_13.index t 0 * 50 + 1 * (y 0).val = (y 0).val; rw [h0]; omega
  | ⟨1, _⟩ => show win0_13.index t 1 * 40 + 1 * (y 1).val = (y 1).val; rw [h1]; omega
theorem resident14 (c : Dev nD) (t : Fin cfg0.N) : (iblk m c 14 t : FVec Ideal S40 .f32) = V m c main_arg14 := by
  have h0 := index14 t
  funext y
  unfold iblk
  rw [View.read_apply]
  show V m c main_arg14 _ = V m c main_arg14 y
  congr 1
  funext a
  apply Fin.ext
  match a with
  | ⟨0, _⟩ => show win0_14.index t 0 * 40 + 1 * (y 0).val = (y 0).val; rw [h0]; omega
theorem resident15 (c : Dev nD) (t : Fin cfg0.N) : (iblk m c 15 t : FVec Ideal S40x1 .f32) = V m c main_arg15 := by
  obtain ⟨h0, h1⟩ := index15 t
  funext y
  unfold iblk
  rw [View.read_apply]
  show V m c main_arg15 _ = V m c main_arg15 y
  congr 1
  funext a
  apply Fin.ext
  match a with
  | ⟨0, _⟩ => show win0_15.index t 0 * 40 + 1 * (y 0).val = (y 0).val; rw [h0]; omega
  | ⟨1, _⟩ => show win0_15.index t 1 * 1 + 1 * (y 1).val = (y 1).val; rw [h1]; omega
theorem resident16 (c : Dev nD) (t : Fin cfg0.N) : (iblk m c 16 t : FVec Ideal S1 .f32) = V m c main_arg16 := by
  have h0 := index16 t
  funext y
  unfold iblk
  rw [View.read_apply]
  show V m c main_arg16 _ = V m c main_arg16 y
  congr 1
  funext a
  apply Fin.ext
  match a with
  | ⟨0, _⟩ => show win0_16.index t 0 * 1 + 1 * (y 0).val = (y 0).val; rw [h0]; omega
theorem resident17 (c : Dev nD) (t : Fin cfg0.N) : (iblk m c 17 t : FVec Ideal S1x1 .f32) = V m c main_v0 := by
  obtain ⟨h0, h1⟩ := index17 t
  funext y
  unfold iblk
  rw [View.read_apply]
  show V m c main_v0 _ = V m c main_v0 y
  congr 1
  funext a
  apply Fin.ext
  match a with
  | ⟨0, _⟩ => show win0_17.index t 0 * 1 + 1 * (y 0).val = (y 0).val; rw [h0]; omega
  | ⟨1, _⟩ => show win0_17.index t 1 * 1 + 1 * (y 1).val = (y 1).val; rw [h1]; omega

/-! ## The scale as the kernel finds it -/

/-- The `[1, 1]` array the launch stages is the `[1]` argument reshaped: its entry is the argument's entry. -/
theorem scale_entry (c : Dev nD) :
    (V m c main_v0 : FVec Ideal S1x1 .f32) (ix2 (0 : Fin 1) (0 : Fin 1))
      = (m ((c : Thread nD τ).loc main_arg17) : FVec Ideal S1 .f32) (ix1 (0 : Fin 1)) := by
  have e : (V m c main_v0 : FVec Ideal S1x1 .f32)
      = shapeCast S1x1 (m ((c : Thread nD τ).loc main_arg17) : FVec Ideal S1 .f32) shapeCasts_S1_S1x1 := by
    dsimp only [V, hostOps0]
    after_results
    rfl
  rw [e, shapeCast_a_1a_apply]

/-! ## What a point writes back, and the array after the run -/

/-- The result array: the network on every row of the input, at the weights and the scale as launched. -/
def result (c : Dev nD) : FVec Ideal S2000000x1 .f32 :=
  rows (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16))
    ((m ((c : Thread nD τ).loc main_arg17) : FVec Ideal S1 .f32) (ix1 (0 : Fin 1)))

/-- The stored value at entry `y` of a block, over arrays of the literal types: if row `y 0` of the input block is
    row `i 0` of the input array, it is entry `i` of the network applied to every row of that array. -/
theorem stored_entry (X : FVec Ideal S10000x2 .f32) (W1 : FVec Ideal S2x50 .f32) (b1 : FVec Ideal S50 .f32)
    (W2 : FVec Ideal S50x50 .f32) (b2 : FVec Ideal S50 .f32) (W3 : FVec Ideal S50x50 .f32) (b3 : FVec Ideal S50 .f32)
    (W4 : FVec Ideal S50x50 .f32) (b4 : FVec Ideal S50 .f32) (W5 : FVec Ideal S50x50 .f32) (b5 : FVec Ideal S50 .f32)
    (W6 : FVec Ideal S50x50 .f32) (b6 : FVec Ideal S50 .f32) (W7 : FVec Ideal S50x40 .f32) (b7 : FVec Ideal S40 .f32)
    (W8 : FVec Ideal S40x1 .f32) (b8 : FVec Ideal S1 .f32) (s : FVec Ideal S1x1 .f32)
    (Y : FVec Ideal S2000000x2 .f32) (y : S10000x1.Idx) (i : S2000000x1.Idx)
    (hrow : ∀ k : Fin 2, X (ix2 (y 0 : Fin 10000) k) = Y (ix2 (i 0 : Fin 2000000) k)) :
    k0_pay1 (F := Ideal) (k0_pay2 (F := Ideal) X W1 b1 W2 b2 W3 b3 W4 b4) W5 b5 W6 b6 W7 b7 W8 b8 s y
      = rows Y W1 b1 W2 b2 W3 b3 W4 b4 W5 b5 W6 b6 W7 b7 W8 b8 (s (ix2 (0 : Fin 1) (0 : Fin 1))) i := by
  obtain ⟨p, q, rfl⟩ : ∃ (p : Fin 10000) (q : Fin 1), y = ix2 p q := ⟨y 0, y 1, eq_ix2 y⟩
  obtain rfl : q = 0 := Subsingleton.elim _ _
  refine (body_row X W1 b1 W2 b2 W3 b3 W4 b4 W5 b5 W6 b6 W7 b7 W8 b8 s p).trans ?_
  have e : (fun k => X (ix2 p k)) = fun k => Y (ix2 (i 0 : Fin 2000000) k) := funext fun k => hrow k
  rw [e]
  rfl

/-- The same array over the contents the region finds (the weights and the input as the launch staged them). -/
def resultAtEntry (c : Dev nD) : FVec Ideal S2000000x1 .f32 :=
  rows (V m c main_arg0) (V m c main_arg1) (V m c main_arg2) (V m c main_arg3) (V m c main_arg4) (V m c main_arg5)
    (V m c main_arg6) (V m c main_arg7) (V m c main_arg8) (V m c main_arg9) (V m c main_arg10) (V m c main_arg11)
    (V m c main_arg12) (V m c main_arg13) (V m c main_arg14) (V m c main_arg15) (V m c main_arg16)
    ((V m c main_v0 : FVec Ideal S1x1 .f32) (ix2 (0 : Fin 1) (0 : Fin 1)))

/-- No host operation before the launch writes an argument, and the scale's entry is the argument's. -/
theorem resultAtEntry_eq (c : Dev nD) : resultAtEntry m c = result m c := by
  unfold resultAtEntry result
  rw [V_main_arg0 m c, V_main_arg1 m c, V_main_arg2 m c, V_main_arg3 m c, V_main_arg4 m c, V_main_arg5 m c,
    V_main_arg6 m c, V_main_arg7 m c, V_main_arg8 m c, V_main_arg9 m c, V_main_arg10 m c, V_main_arg11 m c,
    V_main_arg12 m c, V_main_arg13 m c, V_main_arg14 m c, V_main_arg15 m c, V_main_arg16 m c, scale_entry m c]

/-- What point `t` writes back is block `t` of the result array: rows `10000 t … 10000 t + 9999` of it. -/
theorem flushed_eq (c : Dev nD) (t : Fin cfg0.N) :
    (dats m 0 c).flushed 18 t = ((cfg0.win 18).blk t).view.read (Elt Ideal) (resultAtEntry m c) := by
  rw [Value.flushed18]
  unfold out0_18
  rw [View.canon_unit_zero zero2]
  simp only [View.ld_unit_zero (S := S10000x2) zero2, View.ld_unit_zero (S := S2x50) zero2, View.ld_unit_zero (S := S50x50) zero2,
    View.ld_unit_zero (S := S50x40) zero2, View.ld_unit_zero (S := S40x1) zero2, View.ld_unit_zero (S := S1x1) zero2,
    View.ld_unit_zero (S := S50) zero1, View.ld_unit_zero (S := S40) zero1, View.ld_unit_zero (S := S1) zero1]
  rw [resident1 m c t, resident2 m c t, resident3 m c t, resident4 m c t, resident5 m c t, resident6 m c t,
    resident7 m c t, resident8 m c t, resident9 m c t, resident10 m c t, resident11 m c t, resident12 m c t,
    resident13 m c t, resident14 m c t, resident15 m c t, resident16 m c t, resident17 m c t]
  obtain ⟨-, -, h0, -⟩ := rows_index t
  funext j
  exact stored_entry (iblk m c 0 t) (V m c main_arg1) (V m c main_arg2) (V m c main_arg3) (V m c main_arg4) (V m c main_arg5)
    (V m c main_arg6) (V m c main_arg7) (V m c main_arg8) (V m c main_arg9) (V m c main_arg10) (V m c main_arg11)
    (V m c main_arg12) (V m c main_arg13) (V m c main_arg14) (V m c main_arg15) (V m c main_arg16) (V m c main_v0)
    (V m c main_arg0) j (((cfg0.win 18).blk t).view.emb j)
    (fun k => input_block m c t (j 0) k _ (by
      show win0_18.index t 0 * 10000 + 1 * (j 0).val = t.val * 10000 + (j 0).val
      rw [h0]; omega))

/-- An index of the result array is in point `t`'s block iff each coordinate is in the block's range on its axis. -/
theorem mem_block (t : Fin cfg0.N) (i : S2000000x1.Idx) :
    i ∈ ((cfg0.win 18).blk t).view.set ↔ ∀ a : Fin 2, win0_18.index t a * S10000x1.size a ≤ (i a).val ∧ (i a).val < win0_18.index t a * S10000x1.size a + S10000x1.size a := by
  show i ∈ ((View.whole main_v1).slice (win0_18.rect t)).set ↔ _
  rw [View.set_slice_whole, Rect.mem_set_unit]
  exact Iff.rfl

/-- The blocks tile the result: row `r` is in the block of point `r / 10000`, which writes back. -/
theorem covered (i : S2000000x1.Idx) :
    ∃ t : Fin cfg0.N, (cfg0.win 18).flush t = true ∧ i ∈ ((cfg0.win 18).blk t).view.set := by
  have hi0 : (i 0).val < 2000000 := (i 0).isLt
  have hi1 : (i 1).val < 1 := (i 1).isLt
  have hN : cfg0.N = 200 := N_0
  obtain ⟨t, ht⟩ : ∃ t : Fin cfg0.N, t.val = (i 0).val / 10000 := ⟨⟨(i 0).val / 10000, by rw [hN]; omega⟩, rfl⟩
  obtain ⟨-, -, h0, h1⟩ := rows_index t
  refine ⟨t, flush0_18 t, ?_⟩
  rw [mem_block]
  intro a
  match a with
  | ⟨0, _⟩ =>
    show win0_18.index t 0 * 10000 ≤ (i 0).val ∧ (i 0).val < win0_18.index t 0 * 10000 + 10000
    rw [h0, ht]; omega
  | ⟨1, _⟩ =>
    show win0_18.index t 1 * 1 ≤ (i 1).val ∧ (i 1).val < win0_18.index t 1 * 1 + 1
    rw [h1]; omega

/-- The result array after the run is the network applied to every row of the input. -/
theorem final (c : Dev nD) : (dats m 0 c).arrAt 18 cfg0.N = result m c :=
  ((dats m 0 c).arrAt_eq_of_cover 18 (resultAtEntry m c) (fun t _ => flushed_eq m c t) covered).trans (resultAtEntry_eq m c)

/-- The kernel's run, read: the result array at the network on every row, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun _ h c => ⟨(h c).1.trans (final m c), (h c).2⟩) (Cert.KernelIdeal.Value.run_blocks m ρ)

end Cert.KernelIdeal.Blocks

end
-- ==== Proof.RefRow.lean ====
/-
  The reference at one row.

  The reference applies each layer to the whole `[2000000, ·]` array at once: a matrix product with the weights, the
  bias repeated down the rows, the activation. Its run is read one operation at a time by the generated stage
  lemmas; here the stages of each layer are put together at one entry `(r, n)`, where the product is the sum over
  row `r` of the layer before: the row-wise layer of `RowNet`. The last layer spells the logistic function out as
  `1 / (1 + e^(-z))` with the literal one, which is how the extended reals define it.
-/
import proofs.«181123_j58763742544053_1_alg».proof.Proof.Gen.ReferenceIdeal.Read
import proofs.«181123_j58763742544053_1_alg».proof.Proof.RowNet
import Idealize.ShloMosaic.Lib.IdealHost

noncomputable section

namespace Cert.ReferenceIdeal.RowRead

open Cert.ReferenceIdeal Cert.ReferenceIdeal.Gen Cert.ReferenceIdeal.Read Cert.RowNet Idealize.ShloMosaic Idealize.ShloMosaic.ValueIdx

variable (x0 : FVec Ideal S2000000x2 .f32) (x1 : FVec Ideal S2x50 .f32) (x2 : FVec Ideal S50 .f32)
  (x3 : FVec Ideal S50x50 .f32) (x4 : FVec Ideal S50 .f32) (x5 : FVec Ideal S50x50 .f32) (x6 : FVec Ideal S50 .f32)
  (x7 : FVec Ideal S50x50 .f32) (x8 : FVec Ideal S50 .f32) (x9 : FVec Ideal S50x50 .f32) (x10 : FVec Ideal S50 .f32)
  (x11 : FVec Ideal S50x50 .f32) (x12 : FVec Ideal S50 .f32) (x13 : FVec Ideal S50x40 .f32) (x14 : FVec Ideal S40 .f32)
  (x15 : FVec Ideal S40x1 .f32) (x16 : FVec Ideal S1 .f32) (x17 : FVec Ideal S1 .f32)

/-- After the first layer, entry `(r, n)` is unit `n` of the first hidden layer on row `r` of the input. -/
theorem layer1 (r : Fin 2000000) (n : Fin 50) :
    val_main_v4 (F := Ideal) x0 x1 x2 (ix2 r n) = hidden (fun k => x0 (ix2 r k)) x1 x2 n := by
  have el : ∀ k, lidx_main_v0 (ix2 r n) k = ix2 r k := fun k => funext fun a => Fin.ext (by
    match a with
    | ⟨0, _⟩ => rfl
    | ⟨1, _⟩ => rfl)
  have er : ∀ k, ridx_main_v0 (ix2 r n) k = ix2 k n := fun k => funext fun a => Fin.ext (by
    match a with
    | ⟨0, _⟩ => rfl
    | ⟨1, _⟩ => rfl)
  have eb : idx_main_v1 (idx_main_v2 (ix2 r n)) = ix1 n := funext fun a => Fin.ext (by
    match a with
    | ⟨0, _⟩ => rfl)
  rw [val_main_v4_apply, val_main_v3_apply, val_main_v0_apply, val_main_v2_apply, val_main_v1_apply]
  simp only [el, er, eb]
  rfl

/-- After the second layer. -/
theorem layer2 (r : Fin 2000000) (n : Fin 50) :
    val_main_v9 (F := Ideal) x0 x1 x2 x3 x4 (ix2 r n) = hidden (hidden (fun k => x0 (ix2 r k)) x1 x2) x3 x4 n := by
  have el : ∀ k, lidx_main_v5 (ix2 r n) k = ix2 r k := fun k => funext fun a => Fin.ext (by
    match a with
    | ⟨0, _⟩ => rfl
    | ⟨1, _⟩ => rfl)
  have er : ∀ k, ridx_main_v5 (ix2 r n) k = ix2 k n := fun k => funext fun a => Fin.ext (by
    match a with
    | ⟨0, _⟩ => rfl
    | ⟨1, _⟩ => rfl)
  have eb : idx_main_v6 (idx_main_v7 (ix2 r n)) = ix1 n := funext fun a => Fin.ext (by
    match a with
    | ⟨0, _⟩ => rfl)
  rw [val_main_v9_apply, val_main_v8_apply, val_main_v5_apply, val_main_v7_apply, val_main_v6_apply]
  simp only [el, er, eb, layer1]
  rfl

/-- After the third layer. -/
theorem layer3 (r : Fin 2000000) (n : Fin 50) :
    val_main_v14 (F := Ideal) x0 x1 x2 x3 x4 x5 x6 (ix2 r n)
      = hidden (hidden (hidden (fun k => x0 (ix2 r k)) x1 x2) x3 x4) x5 x6 n := by
  have el : ∀ k, lidx_main_v10 (ix2 r n) k = ix2 r k := fun k => funext fun a => Fin.ext (by
    match a with
    | ⟨0, _⟩ => rfl
    | ⟨1, _⟩ => rfl)
  have er : ∀ k, ridx_main_v10 (ix2 r n) k = ix2 k n := fun k => funext fun a => Fin.ext (by
    match a with
    | ⟨0, _⟩ => rfl
    | ⟨1, _⟩ => rfl)
  have eb : idx_main_v11 (idx_main_v12 (ix2 r n)) = ix1 n := funext fun a => Fin.ext (by
    match a with
    | ⟨0, _⟩ => rfl)
  rw [val_main_v14_apply, val_main_v13_apply, val_main_v10_apply, val_main_v12_apply, val_main_v11_apply]
  simp only [el, er, eb, layer2]
  rfl

/-- After the fourth layer. -/
theorem layer4 (r : Fin 2000000) (n : Fin 50) :
    val_main_v19 (F := Ideal) x0 x1 x2 x3 x4 x5 x6 x7 x8 (ix2 r n)
      = hidden (hidden (hidden (hidden (fun k => x0 (ix2 r k)) x1 x2) x3 x4) x5 x6) x7 x8 n := by
  have el : ∀ k, lidx_main_v15 (ix2 r n) k = ix2 r k := fun k => funext fun a => Fin.ext (by
    match a with
    | ⟨0, _⟩ => rfl
    | ⟨1, _⟩ => rfl)
  have er : ∀ k, ridx_main_v15 (ix2 r n) k = ix2 k n := fun k => funext fun a => Fin.ext (by
    match a with
    | ⟨0, _⟩ => rfl
    | ⟨1, _⟩ => rfl)
  have eb : idx_main_v16 (idx_main_v17 (ix2 r n)) = ix1 n := funext fun a => Fin.ext (by
    match a with
    | ⟨0, _⟩ => rfl)
  rw [val_main_v19_apply, val_main_v18_apply, val_main_v15_apply, val_main_v17_apply, val_main_v16_apply]
  simp only [el, er, eb, layer3]
  rfl

/-- After the fifth layer. -/
theorem layer5 (r : Fin 2000000) (n : Fin 50) :
    val_main_v24 (F := Ideal) x0 x1 x2 x3 x4 x5 x6 x7 x8 x9 x10 (ix2 r n)
      = hidden (hidden (hidden (hidden (hidden (fun k => x0 (ix2 r k)) x1 x2) x3 x4) x5 x6) x7 x8) x9 x10 n := by
  have el : ∀ k, lidx_main_v20 (ix2 r n) k = ix2 r k := fun k => funext fun a => Fin.ext (by
    match a with
    | ⟨0, _⟩ => rfl
    | ⟨1, _⟩ => rfl)
  have er : ∀ k, ridx_main_v20 (ix2 r n) k = ix2 k n := fun k => funext fun a => Fin.ext (by
    match a with
    | ⟨0, _⟩ => rfl
    | ⟨1, _⟩ => rfl)
  have eb : idx_main_v21 (idx_main_v22 (ix2 r n)) = ix1 n := funext fun a => Fin.ext (by
    match a with
    | ⟨0, _⟩ => rfl)
  rw [val_main_v24_apply, val_main_v23_apply, val_main_v20_apply, val_main_v22_apply, val_main_v21_apply]
  simp only [el, er, eb, layer4]
  rfl

/-- After the sixth layer. -/
theorem layer6 (r : Fin 2000000) (n : Fin 50) :
    val_main_v29 (F := Ideal) x0 x1 x2 x3 x4 x5 x6 x7 x8 x9 x10 x11 x12 (ix2 r n)
      = hidden (hidden (hidden (hidden (hidden (hidden (fun k => x0 (ix2 r k)) x1 x2) x3 x4) x5 x6) x7 x8) x9 x10) x11 x12 n := by
  have el : ∀ k, lidx_main_v25 (ix2 r n) k = ix2 r k := fun k => funext fun a => Fin.ext (by
    match a with
    | ⟨0, _⟩ => rfl
    | ⟨1, _⟩ => rfl)
  have er : ∀ k, ridx_main_v25 (ix2 r n) k = ix2 k n := fun k => funext fun a => Fin.ext (by
    match a with
    | ⟨0, _⟩ => rfl
    | ⟨1, _⟩ => rfl)
  have eb : idx_main_v26 (idx_main_v27 (ix2 r n)) = ix1 n := funext fun a => Fin.ext (by
    match a with
    | ⟨0, _⟩ => rfl)
  rw [val_main_v29_apply, val_main_v28_apply, val_main_v25_apply, val_main_v27_apply, val_main_v26_apply]
  simp only [el, er, eb, layer5]
  rfl

/-- After the seventh layer: the 40 activations the output unit reads. -/
theorem layer7 (r : Fin 2000000) (n : Fin 40) :
    val_main_v34 (F := Ideal) x0 x1 x2 x3 x4 x5 x6 x7 x8 x9 x10 x11 x12 x13 x14 (ix2 r n)
      = features (fun k => x0 (ix2 r k)) x1 x2 x3 x4 x5 x6 x7 x8 x9 x10 x11 x12 x13 x14 n := by
  have el : ∀ k, lidx_main_v30 (ix2 r n) k = ix2 r k := fun k => funext fun a => Fin.ext (by
    match a with
    | ⟨0, _⟩ => rfl
    | ⟨1, _⟩ => rfl)
  have er : ∀ k, ridx_main_v30 (ix2 r n) k = ix2 k n := fun k => funext fun a => Fin.ext (by
    match a with
    | ⟨0, _⟩ => rfl
    | ⟨1, _⟩ => rfl)
  have eb : idx_main_v31 (idx_main_v32 (ix2 r n)) = ix1 n := funext fun a => Fin.ext (by
    match a with
    | ⟨0, _⟩ => rfl)
  rw [val_main_v34_apply, val_main_v33_apply, val_main_v30_apply, val_main_v32_apply, val_main_v31_apply]
  simp only [el, er, eb, layer6]
  rfl

/-- The result at entry `(r, 0)`: the output unit on the 40 activations of row `r`, times the one entry of `scale`.
    The reference's quotient `1 / (1 + e^(-z))`, its ones the literal `1.0`, is the logistic function as the extended
    reals define it. -/
theorem result_row (r : Fin 2000000) :
    val_main_v47 (F := Ideal) x0 x1 x2 x3 x4 x5 x6 x7 x8 x9 x10 x11 x12 x13 x14 x15 x16 x17 (ix2 r (0 : Fin 1))
      = output (features (fun k => x0 (ix2 r k)) x1 x2 x3 x4 x5 x6 x7 x8 x9 x10 x11 x12 x13 x14) x15 x16 (x17 (ix1 (0 : Fin 1))) := by
  have el : ∀ k, lidx_main_v35 (ix2 r (0 : Fin 1)) k = ix2 r k := fun k => funext fun a => Fin.ext (by
    match a with
    | ⟨0, _⟩ => rfl
    | ⟨1, _⟩ => rfl)
  have er : ∀ k, ridx_main_v35 (ix2 r (0 : Fin 1)) k = ix2 k (0 : Fin 1) := fun k => funext fun a => Fin.ext (by
    match a with
    | ⟨0, _⟩ => rfl
    | ⟨1, _⟩ => rfl)
  have eb : idx_main_v36 (idx_main_v37 (ix2 r (0 : Fin 1))) = ix1 (0 : Fin 1) := funext fun a => Fin.ext (by
    match a with
    | ⟨0, _⟩ => rfl)
  have es : idx_main_v45 (idx_main_v46 (ix2 r (0 : Fin 1))) = ix1 (0 : Fin 1) := funext fun a => Fin.ext (by
    match a with
    | ⟨0, _⟩ => rfl)
  rw [val_main_v47_apply, val_main_v46_apply, val_main_v45_apply, val_main_v44_apply, val_main_v43_apply,
    val_main_cst_0_apply, val_main_v42_apply, val_main_v41_apply, val_main_cst_apply, val_main_v40_apply,
    val_main_v39_apply, val_main_v38_apply, val_main_v35_apply, val_main_v37_apply, val_main_v36_apply]
  simp only [el, er, eb, es, layer7]
  show x17 (ix1 (0 : Fin 1)) * Ideal.div (Ideal.ofBits .f32 0x3F800000#32) (Ideal.ofBits .f32 0x3F800000#32
      + Ideal.exp (-((∑ k : Fin 40, features (fun k => x0 (ix2 r k)) x1 x2 x3 x4 x5 x6 x7 x8 x9 x10 x11 x12 x13 x14 k * x15 (ix2 k (0 : Fin 1)))
        + x16 (ix1 (0 : Fin 1))))) = _
  rw [Ideal.ofBits_one_f32]
  rfl

/-- The reference's result array is the network applied to every row of its input. -/
theorem result_eq :
    val_main_v47 (F := Ideal) x0 x1 x2 x3 x4 x5 x6 x7 x8 x9 x10 x11 x12 x13 x14 x15 x16 x17
      = rows x0 x1 x2 x3 x4 x5 x6 x7 x8 x9 x10 x11 x12 x13 x14 x15 x16 (x17 (ix1 (0 : Fin 1))) := by
  funext i
  obtain ⟨r, q, rfl⟩ : ∃ (r : Fin 2000000) (q : Fin 1), i = ix2 r q := ⟨i 0, i 1, eq_ix2 i⟩
  obtain rfl : q = 0 := Subsingleton.elim _ _
  exact result_row x0 x1 x2 x3 x4 x5 x6 x7 x8 x9 x10 x11 x12 x13 x14 x15 x16 x17 r

end Cert.ReferenceIdeal.RowRead

end
-- ==== Proof.lean ====
/-
  An eight-layer perceptron on two million rows, in blocks of ten thousand.

  Both programs map every row `x` (two entries) of the input to
  `scale · σ (h₇ · W₈ + b₈)`, `hᵢ = tanh (hᵢ₋₁ · Wᵢ + bᵢ)`, `h₀ = x`, `σ z = 1 / (1 + e^(-z))`. The reference does each layer on
  the whole array; the kernel cuts the rows into 200 blocks, keeps the weights resident, rounds to a narrower
  float format between layers and multiplies on the matrix unit into a zero accumulator. Over the extended reals
  the change of format is the identity and a product into zero is the plain sum, a row's result depends on no other
  row, and the reference's spelt-out quotient is the logistic function by definition; so both runs end with the
  result array at ONE function of the arguments, `RowNet.rows`, and no finiteness of the inputs is used.
  The kernel's frames and the reference's run are the generated ones; the idealization rewrote nothing.
-/
import proofs.«181123_j58763742544053_1_alg».proof.Defs
import proofs.«181123_j58763742544053_1_alg».proof.Proof.Gen.Kernel
import proofs.«181123_j58763742544053_1_alg».proof.Proof.Gen.Kernel.Skeleton
import proofs.«181123_j58763742544053_1_alg».proof.Proof.Gen.Kernel.Launch
import proofs.«181123_j58763742544053_1_alg».proof.Proof.Gen.Kernel.Points
import proofs.«181123_j58763742544053_1_alg».proof.Proof.Gen.Kernel.Frame
import proofs.«181123_j58763742544053_1_alg».proof.Proof.Gen.KernelIdeal
import proofs.«181123_j58763742544053_1_alg».proof.Proof.Gen.KernelIdeal.Skeleton
import proofs.«181123_j58763742544053_1_alg».proof.Proof.Gen.KernelIdeal.Launch
import proofs.«181123_j58763742544053_1_alg».proof.Proof.Gen.KernelIdeal.Points
import proofs.«181123_j58763742544053_1_alg».proof.Proof.Gen.KernelIdeal.Frame
import proofs.«181123_j58763742544053_1_alg».proof.Proof.Gen.ReferenceIdeal
import proofs.«181123_j58763742544053_1_alg».proof.Proof.Gen.Pre_finite_inputs
import proofs.«181123_j58763742544053_1_alg».proof.Proof.Gen.KernelIdeal.Value
import proofs.«181123_j58763742544053_1_alg».proof.Proof.Gen.ReferenceIdeal.Run
import proofs.«181123_j58763742544053_1_alg».proof.Proof.Gen.ReferenceIdeal.Read
import proofs.«181123_j58763742544053_1_alg».proof.Proof.KernelArray
import proofs.«181123_j58763742544053_1_alg».proof.Proof.RefRow
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both runs end with the result array at the network applied to every row
    of the input: the kernel's by its blocks, the reference's by its layers. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17⟩ := hagree c
  rw [Cert.ReferenceIdeal.Read.val_main_v47_eq, Cert.ReferenceIdeal.RowRead.result_eq,
    a0, a1, a2, a3, a4, a5, a6, a7, a8, a9, a10, a11, a12, a13, a14, a15, a16, a17]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
